-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000 : Shape := ⟨1, ![1600000]⟩
abbrev S_ : Shape := ⟨0, ![]⟩
abbrev S1x1600000 : Shape := ⟨2, ![1, 1600000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  slices_S2x1600000_S1x1600000_0_0 : S2x1600000.Slices ![0, 0] S1x1600000
  shapeCasts_S1x1600000_S1600000 : S1x1600000.ShapeCasts S1600000

variable [Facts]

def fn_part1 {F : FTy → Type} [FloatOps F] (main_v8 : IVec S_ 1) (main_v17 : IVec S1600000 1) : IVec S_ 1 :=
  let main_c_4 : IVec S_ 1 := constantI S_ 1 1#1
  let main_v18 : IVec S_ 1 := (fun x v => Host.reduce IntOp.andi x v reducesTo_S1600000_S_d0 h_S_) main_v17 main_c_4
  let main_v19 : IVec S_ 1 := andi main_v8 main_v18
  main_v19

def fn {F : FTy → Type} [FloatOps F] (main_arg0 : FVec F S50000x64 .f32) (main_arg1 : IVec S2x1600000 32) (main_arg2 : FVec F S1600000 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : IVec S1x1600000 32 := (extractStridedSlice S1x1600000 ![0, 0] · slices_S2x1600000_S1x1600000_0_0) main_arg1
  let main_v10 : IVec S1600000 32 := shapeCast S1600000 main_v9 shapeCasts_S1x1600000_S1600000
  let main_c_2 : IVec S_ 32 := constantI S_ 32 0#32
  let main_v11 : IVec S1600000 32 := broadcastInDim S1600000 ![] bcast_S_S1600000 main_c_2
  let main_v12 : IVec S1600000 1 := cmpi .sge main_v10 main_v11
  let main_v13 : IVec S1x1600000 32 := (extractStridedSlice S1x1600000 ![0, 0] · slices_S2x1600000_S1x1600000_0_0) main_arg1
  let main_v14 : IVec S1600000 32 := shapeCast S1600000 main_v13 shapeCasts_S1x1600000_S1600000
  let main_c_3 : IVec S_ 32 := constantI S_ 32 50000#32
  let main_v15 : IVec S1600000 32 := broadcastInDim S1600000 ![] bcast_S_S1600000 main_c_3
  let main_v16 : IVec S1600000 1 := cmpi .slt main_v14 main_v15
  let main_v17 : IVec S1600000 1 := andi main_v12 main_v16
  fn_part1 (F := F) main_v8 main_v17
-- ==== Kernel.lean ====
abbrev S50000x64 : Shape := ⟨2, ![50000, 64]⟩
abbrev S2x1600000 : Shape := ⟨2, ![2, 1600000]⟩
abbrev S1600000 : Shape := ⟨1, ![1600000]⟩
abbrev S_ : Shape := ⟨0, ![]⟩
abbrev S50176x64 : Shape := ⟨2, ![50176, 64]⟩
abbrev S1x1600000 : Shape := ⟨2, ![1, 1600000]⟩
abbrev S1600512 : Shape := ⟨1, ![1600512]⟩
abbrev S1600512x1 : Shape := ⟨2, ![1600512, 1]⟩
abbrev S1x1600512 : Shape := ⟨2, ![1, 1600512]⟩
abbrev S1024x1 : Shape := ⟨2, ![1024, 1]⟩
abbrev S1x1024 : Shape := ⟨2, ![1, 1024]⟩
abbrev S1024x64 : Shape := ⟨2, ![1024, 64]⟩
abbrev S1024x1024 : Shape := ⟨2, ![1024, 1024]⟩

abbrev nBuf : Space → Nat
  | .hbm => 24
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000, .f32⟩
  | .hbm, ⟨3, _⟩ => ⟨S_, .i32⟩
  | .hbm, ⟨4, _⟩ => ⟨S_, .f32⟩
  | .hbm, ⟨5, _⟩ => ⟨S50176x64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S_, .i32⟩
  | .hbm, ⟨12, _⟩ => ⟨S1600512, .i32⟩
  | .hbm, ⟨13, _⟩ => ⟨S_, .i32⟩
  | .hbm, ⟨14, _⟩ => ⟨S_, .i32⟩
  | .hbm, ⟨15, _⟩ => ⟨S1600512, .i32⟩
  | .hbm, ⟨16, _⟩ => ⟨S_, .f32⟩
  | .hbm, ⟨17, _⟩ => ⟨S_, .f32⟩
  | .hbm, ⟨18, _⟩ => ⟨S1600512, .f32⟩
  | .hbm, ⟨19, _⟩ => ⟨S1600512x1, .i32⟩
  | .hbm, ⟨20, _⟩ => ⟨S1x1600512, .i32⟩
  | .hbm, ⟨21, _⟩ => ⟨S1600512x1, .f32⟩
  | .hbm, ⟨22, _⟩ => ⟨S50176x64, .f32⟩
  | .hbm, ⟨23, _⟩ => ⟨S50000x64, .f32⟩
  | .local _ .vmem, ⟨0, _⟩ => ⟨S1024x1, .i32⟩
  | .local _ .vmem, ⟨1, _⟩ => ⟨S1024x1, .i32⟩
  | .local _ .vmem, ⟨2, _⟩ => ⟨S1x1024, .i32⟩
  | .local _ .vmem, ⟨3, _⟩ => ⟨S1x1024, .i32⟩
  | .local _ .vmem, ⟨4, _⟩ => ⟨S1024x1, .f32⟩
  | .local _ .vmem, ⟨5, _⟩ => ⟨S1024x1, .f32⟩
  | .local _ .vmem, ⟨6, _⟩ => ⟨S50176x64, .f32⟩
  | .local _ .vmem, ⟨7, _⟩ => ⟨S50176x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_cst : Ref sig .tc := ⟨.hbm, 16, rfl⟩
abbrev main_call3_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![1563], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S50176x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50176x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  pads_S50000x64_S50176x64_01760_000 : S50000x64.Pads (![0, 0] : Fin 2 → Nat) ![176, 0] ![0, 0] S50176x64
  h_S_ : 0 < S_.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S1600000_S1600512_05120 : S1600000.Pads (![0] : Fin 1 → Nat) ![512] ![0] S1600512
  shapeCasts_S1600512_S1600512x1 : S1600512.ShapeCasts S1600512x1
  shapeCasts_S1600512_S1x1600512 : S1600512.ShapeCasts S1x1600512
  inb_S50176x64_S50176x64_0_0 : ∀ a, (![0, 0] : Fin 2 → Nat) a + S50176x64.size a ≤ S50176x64.size a
  h_S50176x64 : 0 < S50176x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1x1024_d1_w32 : S1x1024.Iotas .tc 32 [1]
  broadcasts_S1024x1_S1024x1024 : S1024x1.Broadcasts S1024x1024
  broadcasts_S1x1024_S1024x1024 : S1x1024.Broadcasts S1024x1024
  bitsLt_bf16_f32 : FTy.bits .bf16 < FTy.bits .f32
  inb_S50176x64_S1024x64_0_0 : ∀ a, (![0, 0] : Fin 2 → Nat) a + S1024x64.size a ≤ S50176x64.size a
  h_S1024x64 : 0 < S1024x64.numel
  shapeCasts_S1024x64_S1024x64 : S1024x64.ShapeCasts S1024x64
  inb_S50176x64_S1024x64_1024_0 : ∀ a, (![1024, 0] : Fin 2 → Nat) a + S1024x64.size a ≤ S50176x64.size a
  inb_S50176x64_S1024x64_2048_0 : ∀ a, (![2048, 0] : Fin 2 → Nat) a + S1024x64.size a ≤ S50176x64.size a
  inb_S50176x64_S1024x64_3072_0 : ∀ a, (![3072, 0] : Fin 2 → Nat) a + S1024x64.size a ≤ S50176x64.size a
  inb_S50176x64_S1024x64_4096_0 : ∀ a, (![4096, 0] : Fin 2 → Nat) a + S1024x64.size a ≤ S50176x64.size a
  inb_S50176x64_S1024x64_5120_0 : ∀ a, (![5120, 0] : Fin 2 → Nat) a + S1024x64.size a ≤ S50176x64.size a
  inb_S50176x64_S1024x64_6144_0 : ∀ a, (![6144, 0] : Fin 2 → Nat) a + S1024x64.size a ≤ S50176x64.size a
  inb_S50176x64_S1024x64_7168_0 : ∀ a, (![7168, 0] : Fin 2 → Nat) a + S1024x64.size a ≤ S50176x64.size a
  inb_S50176x64_S1024x64_8192_0 : ∀ a, (![8192, 0] : Fin 2 → Nat) a + S1024x64.size a ≤ S50176x64.size a
  inb_S50176x64_S1024x64_9216_0 : ∀ a, (![9216, 0] : Fin 2 → Nat) a + S1024x64.size a ≤ S50176x64.size a
  inb_S50176x64_S1024x64_10240_0 : ∀ a, (![10240, 0] : Fin 2 → Nat) a + S1024x64.size a ≤ S50176x64.size a
  inb_S50176x64_S1024x64_11264_0 : ∀ a, (![11264, 0] : Fin 2 → Nat) a + S1024x64.size a ≤ S50176x64.size a
  inb_S50176x64_S1024x64_12288_0 : ∀ a, (![12288, 0] : Fin 2 → Nat) a + S1024x64.size a ≤ S50176x64.size a
  inb_S50176x64_S1024x64_13312_0 : ∀ a, (![13312, 0] : Fin 2 → Nat) a + S1024x64.size a ≤ S50176x64.size a
  inb_S50176x64_S1024x64_14336_0 : ∀ a, (![14336, 0] : Fin 2 → Nat) a + S1024x64.size a ≤ S50176x64.size a
  inb_S50176x64_S1024x64_15360_0 : ∀ a, (![15360, 0] : Fin 2 → Nat) a + S1024x64.size a ≤ S50176x64.size a
  inb_S50176x64_S1024x64_16384_0 : ∀ a, (![16384, 0] : Fin 2 → Nat) a + S1024x64.size a ≤ S50176x64.size a
  inb_S50176x64_S1024x64_17408_0 : ∀ a, (![17408, 0] : Fin 2 → Nat) a + S1024x64.size a ≤ S50176x64.size a
  inb_S50176x64_S1024x64_18432_0 : ∀ a, (![18432, 0] : Fin 2 → Nat) a + S1024x64.size a ≤ S50176x64.size a
  inb_S50176x64_S1024x64_19456_0 : ∀ a, (![19456, 0] : Fin 2 → Nat) a + S1024x64.size a ≤ S50176x64.size a
  inb_S50176x64_S1024x64_20480_0 : ∀ a, (![20480, 0] : Fin 2 → Nat) a + S1024x64.size a ≤ S50176x64.size a
  inb_S50176x64_S1024x64_21504_0 : ∀ a, (![21504, 0] : Fin 2 → Nat) a + S1024x64.size a ≤ S50176x64.size a
  inb_S50176x64_S1024x64_22528_0 : ∀ a, (![22528, 0] : Fin 2 → Nat) a + S1024x64.size a ≤ S50176x64.size a
  inb_S50176x64_S1024x64_23552_0 : ∀ a, (![23552, 0] : Fin 2 → Nat) a + S1024x64.size a ≤ S50176x64.size a
  inb_S50176x64_S1024x64_24576_0 : ∀ a, (![24576, 0] : Fin 2 → Nat) a + S1024x64.size a ≤ S50176x64.size a
  inb_S50176x64_S1024x64_25600_0 : ∀ a, (![25600, 0] : Fin 2 → Nat) a + S1024x64.size a ≤ S50176x64.size a
  inb_S50176x64_S1024x64_26624_0 : ∀ a, (![26624, 0] : Fin 2 → Nat) a + S1024x64.size a ≤ S50176x64.size a
  inb_S50176x64_S1024x64_27648_0 : ∀ a, (![27648, 0] : Fin 2 → Nat) a + S1024x64.size a ≤ S50176x64.size a
  inb_S50176x64_S1024x64_28672_0 : ∀ a, (![28672, 0] : Fin 2 → Nat) a + S1024x64.size a ≤ S50176x64.size a
  inb_S50176x64_S1024x64_29696_0 : ∀ a, (![29696, 0] : Fin 2 → Nat) a + S1024x64.size a ≤ S50176x64.size a
  inb_S50176x64_S1024x64_30720_0 : ∀ a, (![30720, 0] : Fin 2 → Nat) a + S1024x64.size a ≤ S50176x64.size a
  inb_S50176x64_S1024x64_31744_0 : ∀ a, (![31744, 0] : Fin 2 → Nat) a + S1024x64.size a ≤ S50176x64.size a
  inb_S50176x64_S1024x64_32768_0 : ∀ a, (![32768, 0] : Fin 2 → Nat) a + S1024x64.size a ≤ S50176x64.size a
  inb_S50176x64_S1024x64_33792_0 : ∀ a, (![33792, 0] : Fin 2 → Nat) a + S1024x64.size a ≤ S50176x64.size a
  inb_S50176x64_S1024x64_34816_0 : ∀ a, (![34816, 0] : Fin 2 → Nat) a + S1024x64.size a ≤ S50176x64.size a
  inb_S50176x64_S1024x64_35840_0 : ∀ a, (![35840, 0] : Fin 2 → Nat) a + S1024x64.size a ≤ S50176x64.size a
  inb_S50176x64_S1024x64_36864_0 : ∀ a, (![36864, 0] : Fin 2 → Nat) a + S1024x64.size a ≤ S50176x64.size a
  inb_S50176x64_S1024x64_37888_0 : ∀ a, (![37888, 0] : Fin 2 → Nat) a + S1024x64.size a ≤ S50176x64.size a
  inb_S50176x64_S1024x64_38912_0 : ∀ a, (![38912, 0] : Fin 2 → Nat) a + S1024x64.size a ≤ S50176x64.size a
  inb_S50176x64_S1024x64_39936_0 : ∀ a, (![39936, 0] : Fin 2 → Nat) a + S1024x64.size a ≤ S50176x64.size a
  inb_S50176x64_S1024x64_40960_0 : ∀ a, (![40960, 0] : Fin 2 → Nat) a + S1024x64.size a ≤ S50176x64.size a
  inb_S50176x64_S1024x64_41984_0 : ∀ a, (![41984, 0] : Fin 2 → Nat) a + S1024x64.size a ≤ S50176x64.size a
  inb_S50176x64_S1024x64_43008_0 : ∀ a, (![43008, 0] : Fin 2 → Nat) a + S1024x64.size a ≤ S50176x64.size a
  inb_S50176x64_S1024x64_44032_0 : ∀ a, (![44032, 0] : Fin 2 → Nat) a + S1024x64.size a ≤ S50176x64.size a
  inb_S50176x64_S1024x64_45056_0 : ∀ a, (![45056, 0] : Fin 2 → Nat) a + S1024x64.size a ≤ S50176x64.size a
  inb_S50176x64_S1024x64_46080_0 : ∀ a, (![46080, 0] : Fin 2 → Nat) a + S1024x64.size a ≤ S50176x64.size a
  inb_S50176x64_S1024x64_47104_0 : ∀ a, (![47104, 0] : Fin 2 → Nat) a + S1024x64.size a ≤ S50176x64.size a
  inb_S50176x64_S1024x64_48128_0 : ∀ a, (![48128, 0] : Fin 2 → Nat) a + S1024x64.size a ≤ S50176x64.size a
  inb_S50176x64_S1024x64_49152_0 : ∀ a, (![49152, 0] : Fin 2 → Nat) a + S1024x64.size a ≤ S50176x64.size a
  broadcasts_S1024x1_S1024x64 : S1024x1.Broadcasts S1024x64
  iota_S1024x1_d0_w32 : S1024x1.Iotas .tc 32 [0]
  slices_S50176x64_S50000x64_0_0 : S50176x64.Slices ![0, 0] S50000x64
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S1600512x1.size a
  hwx0_0 : ∀ i : grid0.Coords, EltTy.bits .i32 = 32 ∨ (Rect.block (s := S1600512x1) S1024x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1600512.size a
  hwx0_1 : ∀ i : grid0.Coords, EltTy.bits .i32 = 32 ∨ (Rect.block (s := S1x1600512) S1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1600512x1.size a
  hwx0_2 : ∀ i : grid0.Coords, EltTy.bits .f32 = 32 ∨ (Rect.block (s := S1600512x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50176x64.size a ≤ S50176x64.size a
  hwx0_3 : ∀ i : grid0.Coords, EltTy.bits .f32 = 32 ∨ (Rect.block (s := S50176x64) S50176x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50176x64.size a ≤ S50176x64.size a
  hwx0_4 : ∀ i : grid0.Coords, EltTy.bits .f32 = 32 ∨ (Rect.block (s := S50176x64) S50176x64.size (cc0_transform_4 i) (hinb0_4 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v8) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S50176x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S50176x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000 : Shape := ⟨1, ![1600000]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩

abbrev nBuf : Space → Nat
  | .hbm => 23
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x1, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S50000x64, .f32⟩
  | .hbm, ⟨21, _⟩ => ⟨S1600000x1, .i32⟩
  | .hbm, ⟨22, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.RefRun.lean ====
/-
  The reference program's run — its twenty host operations composed into one term of the arguments — and that term read
  one operation at a time at an index: the two generated modules every reading of the reference's value starts from.
-/
import proofs.«403076_j88974542503970_2_alg».proof.Proof.Gen.ReferenceIdeal.Run
import proofs.«403076_j88974542503970_2_alg».proof.Proof.Gen.ReferenceIdeal.Read
-- ==== Proof.Spec.lean ====
/-
  Message passing with sum aggregation, as ONE function of the argument arrays: node i's feature f is the sum, over the
  edges e whose target is i, of the source node's feature x[src e, f] times the edge's weight w[e]. The vocabulary both
  programs' values are stated in: the edge list's two rows, the zero-padded edge list and node table the kernel is
  launched on, and one padded edge's term of the sum.
-/
import Idealize.ShloMosaic.PureOps.Ideal
import Idealize.ShloMosaic.Lib.ValueIdx

noncomputable section

open scoped BigOperators

namespace Cert.SegSum

open Idealize.ShloMosaic Idealize.ShloMosaic.ValueIdx

/-- The node features: 50000 nodes of 64 features. -/
abbrev XArr : Type := (⟨2, ![50000, 64]⟩ : Shape).Idx → EReal
/-- The edge list: row 0 the sources, row 1 the targets, as 32-bit words. -/
abbrev EArr : Type := (⟨2, ![2, 1600000]⟩ : Shape).Idx → BitVec 32
/-- The edge weights. -/
abbrev WArr : Type := (⟨1, ![1600000]⟩ : Shape).Idx → EReal

/-- Edge e's source node, as the word the edge list holds. -/
abbrev src (ei : EArr) (e : Fin 1600000) : BitVec 32 := ei (ix2 (0 : Fin 2) e)
/-- Edge e's target node, as the word the edge list holds. -/
abbrev tgt (ei : EArr) (e : Fin 1600000) : BitVec 32 := ei (ix2 (1 : Fin 2) e)

/-- Every source is a node: the word, read unsigned, is below 50000 (so it is also non-negative read signed). -/
def SrcInRange (ei : EArr) : Prop := ∀ e : Fin 1600000, (src ei e).toNat < 50000

/-- THE RESULT: out[i, f] = Σ over the edges e with target i of x[src e, f] · w[e]. The source is clamped to the last node
    so that the term is total; under `SrcInRange` the clamp is the identity. -/
def G (x : XArr) (ei : EArr) (w : WArr) : XArr :=
  fun y => ∑ e : Fin 1600000,
    if (tgt ei e).toNat = (y 0).val then x (ix2 ⟨min (src ei e).toNat 49999, by omega⟩ (y 1)) * w (ix1 e) else 0

/-! ## The padded arrays the kernel is launched on -/

/-- The sources padded with node 0 to 1600512 edges (and beyond, for totality). -/
def srcP (ei : EArr) (e' : ℕ) : BitVec 32 := if h : e' < 1600000 then ei (ix2 (0 : Fin 2) ⟨e', h⟩) else 0#32
/-- The targets padded with node 0. -/
def tgtP (ei : EArr) (e' : ℕ) : BitVec 32 := if h : e' < 1600000 then ei (ix2 (1 : Fin 2) ⟨e', h⟩) else 0#32
/-- The weights padded with zero: what makes a padded edge contribute nothing. -/
def wP (w : WArr) (e' : ℕ) : EReal := if h : e' < 1600000 then w (ix1 ⟨e', h⟩) else 0
/-- The node table padded with zero rows. -/
def xP (x : XArr) (r : ℕ) (f : Fin 64) : EReal := if h : r < 50000 then x (ix2 ⟨r, h⟩ f) else 0

/-- Padded edge e''s term of row r's sum: the gathered (padded) source row times the weight when the edge's target is r. -/
def edgeTerm (x : XArr) (ei : EArr) (w : WArr) (e' : ℕ) (r : ℕ) (f : Fin 64) : EReal :=
  if (tgtP ei e').toNat = r then xP x (srcP ei e').toNat f * wP w e' else 0

/-- What the kernel accumulates into row r: over its 1563 grid points, the 1024 padded edges of each. -/
def kernelSum (x : XArr) (ei : EArr) (w : WArr) (r : ℕ) (f : Fin 64) : EReal :=
  ∑ t : Fin 1563, ∑ k : Fin 1024, edgeTerm x ei w (1024 * t.val + k.val) r f

end Cert.SegSum

end
-- ==== Proof.LibRowTakeScatter.lean ====
/-
  Two host operations over a table of rows, read at an index. jnp's `x[idx]` of a table x : [N, C] at a vector of row
  numbers lowers to a `stablehlo.gather` whose start indices are the [E, 1] column of the row numbers: result row e is
  the table's row idx[e], the row number read signed and clamped into [0, N − 1]. A segment sum of rows upd : [E, C]
  into a table x : [N, C] by row numbers idx : [E, 1] lowers to a `stablehlo.scatter` with an add body: at the ideal
  instance result element (i, f) is x (i, f) plus the sum of upd (e, f) over the rows e whose row number, read signed
  and NOT clamped, is i; a row number outside [0, N) contributes nothing.
-/
import Idealize.ShloMosaic.PureOps.Ideal
import Idealize.ShloMosaic.Lib.ValueIdx

noncomputable section

open scoped BigOperators

namespace Cert.Lib.Rows

open Idealize.ShloMosaic Idealize.ShloMosaic.ValueIdx

/-- The gather's dimension numbers for a table [N, C], start indices [E, 1] and result [E, C]: the row axis collapsed
    and named by the start index, the column axis the one offset axis. -/
abbrev rowTakeDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (e, f): the table at row idx[e, 0], read signed and clamped into [0, N − 1], column f. -/
theorem rowTake_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowTakeDims N E C wf) x idx (ix2 e f)
      = x (ix2 ⟨min (idx (ix2 e (0 : Fin 1))).toInt.toNat (N - 1), by omega⟩ f) := by
  unfold Host.gather
  congr 1
  funext a
  refine Fin.ext ?_
  match a with
  | ⟨0, _⟩ =>
    show (rowTakeDims N E C wf).start (ix2 e f) idx 0 + (rowTakeDims N E C wf).batchCoord (ix2 e f) 0
      + (rowTakeDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N E C wf).startIndexMap from List.mem_singleton.mpr rfl)]
    have hsi : (rowTakeDims N E C wf).siIdx (ix2 e f) ⟨List.idxOf (0 : Fin 2) (rowTakeDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowTakeDims N E C wf).start (ix2 e f) idx 1 + (rowTakeDims N E C wf).batchCoord (ix2 e f) 1
      + (rowTakeDims N E C wf).offCoord (ix2 e f) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept (rowTakeDims N E C wf) 1).mpr
      ⟨show (1 : Fin 2) ∉ ([0] : List (Fin 2)) by decide, List.not_mem_nil⟩)]
    rfl

/-- The scatter's dimension numbers for a table [N, C], scatter indices [E, 1] and updates [E, C]: the row axis
    inserted and named by the scatter index, the column axis the one window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (f' : Fin C)

/-- On the row axis the window starts at the update row's row number, read signed. -/
theorem rowScatter_start0 :
    (rowScatterDims N E C wf).start (ix2 e f') idx 0 = (idx (ix2 e (0 : Fin 1))).toInt := by
  unfold ScatterDims.start
  rw [dif_pos (show (0 : Fin 2) ∈ ([0] : List (Fin 2)) from List.mem_singleton.mpr rfl)]
  have hsi : (rowScatterDims N E C wf).siIdx (ix2 e f') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The row axis is inserted: its window coordinate is 0. -/
theorem rowScatter_window0 : (rowScatterDims N E C wf).window (ix2 e f') 0 = 0 := by
  unfold ScatterDims.window
  rw [dif_neg]
  show (0 : Fin 2) ∉ (List.finRange 2).filter (· ∉ ([0] : List (Fin 2)))
  decide

/-- The column axis is not named by the scatter index: its start is 0. -/
theorem rowScatter_start1 : (rowScatterDims N E C wf).start (ix2 e f') idx 1 = 0 := by
  unfold ScatterDims.start
  rw [dif_neg (show (1 : Fin 2) ∉ ([0] : List (Fin 2)) by decide)]

/-- The column axis is the one window axis: its window coordinate is the update's column. -/
theorem rowScatter_window1 : (rowScatterDims N E C wf).window (ix2 e f') 1 = f'.val := by
  unfold ScatterDims.window
  have hmem : (1 : Fin 2) ∈ (rowScatterDims N E C wf).sKept :=
    show (1 : Fin 2) ∈ (List.finRange 2).filter (· ∉ ([0] : List (Fin 2))) by decide
  rw [dif_pos hmem]
  rfl

/-- Update (e, f') lands on (i, f) exactly when row e's row number, read signed, is i and f' = f. -/
theorem rowScatter_resultIdx_eq (i : Fin N) (f : Fin C) :
    (rowScatterDims N E C wf).resultIdx? (ix2 e f') idx = some (ix2 i f)
      ↔ (idx (ix2 e (0 : Fin 1))).toInt = (i.val : ℤ) ∧ f' = f := by
  have h0 := rowScatter_start0 wf idx e f'
  have hw0 := rowScatter_window0 wf e f'
  have h1 := rowScatter_start1 wf idx e f'
  have hw1 := rowScatter_window1 wf e f'
  unfold ScatterDims.resultIdx?
  constructor
  · intro h
    split at h
    · rename_i hin
      have hg := Option.some.inj h
      have e0 := congrArg (fun g => (g 0).val) hg
      have e1 := congrArg (fun g => (g 1).val) hg
      simp only [h0, hw0, h1, hw1] at e0 e1
      have hin0 := (hin 0).1
      rw [h0, hw0] at hin0
      refine ⟨?_, Fin.ext ?_⟩
      · have : ((ix2 i f : (⟨2, ![N, C]⟩ : Shape).Idx) 0).val = i.val := rfl
        omega
      · have : ((ix2 i f : (⟨2, ![N, C]⟩ : Shape).Idx) 1).val = f.val := rfl
        omega
    · exact absurd h (by simp)
  · rintro ⟨hi, rfl⟩
    have hin : ∀ a, 0 ≤ (rowScatterDims N E C wf).start (ix2 e f') idx a + ((rowScatterDims N E C wf).window (ix2 e f') a : ℤ)
        ∧ (rowScatterDims N E C wf).start (ix2 e f') idx a + ((rowScatterDims N E C wf).window (ix2 e f') a : ℤ)
          < (⟨2, ![N, C]⟩ : Shape).size a := by
      intro a
      match a with
      | ⟨0, _⟩ =>
        show 0 ≤ (rowScatterDims N E C wf).start (ix2 e f') idx 0 + ((rowScatterDims N E C wf).window (ix2 e f') 0 : ℤ)
          ∧ (rowScatterDims N E C wf).start (ix2 e f') idx 0 + ((rowScatterDims N E C wf).window (ix2 e f') 0 : ℤ) < (N : ℤ)
        rw [h0, hw0, hi]; have := i.isLt; omega
      | ⟨1, _⟩ =>
        show 0 ≤ (rowScatterDims N E C wf).start (ix2 e f') idx 1 + ((rowScatterDims N E C wf).window (ix2 e f') 1 : ℤ)
          ∧ (rowScatterDims N E C wf).start (ix2 e f') idx 1 + ((rowScatterDims N E C wf).window (ix2 e f') 1 : ℤ) < (C : ℤ)
        rw [h1, hw1]; have := f'.isLt; omega
    rw [dif_pos hin]
    congr 1
    funext a
    refine Fin.ext ?_
    match a with
    | ⟨0, _⟩ =>
      show ((rowScatterDims N E C wf).start (ix2 e f') idx 0 + ((rowScatterDims N E C wf).window (ix2 e f') 0 : ℤ)).toNat = i.val
      rw [h0, hw0, hi]; omega
    | ⟨1, _⟩ =>
      show ((rowScatterDims N E C wf).start (ix2 e f') idx 1 + ((rowScatterDims N E C wf).window (ix2 e f') 1 : ℤ)).toNat = f'.val
      rw [h1, hw1]; omega

end Scatter

/-- THE ROW SCATTER-ADD READ AT (i, f), at the ideal instance: the table's element plus the sum of the update rows
    whose row number, read signed, is i. -/
theorem rowScatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (f : Fin C) :
    Ideal.hostScatterAdd (rowScatterDims N E C wf) x idx upd (ix2 i f)
      = x (ix2 i f) + ∑ e : Fin E, if (idx (ix2 e (0 : Fin 1))).toInt = (i.val : ℤ) then upd (ix2 e f) else 0 := by
  unfold Ideal.hostScatterAdd
  congr 1
  rw [Finset.sum_filter, sum_idx2]
  refine Finset.sum_congr rfl fun e _ => ?_
  simp only [rowScatter_resultIdx_eq wf idx e _ i f]
  by_cases hi : (idx (ix2 e (0 : Fin 1))).toInt = (i.val : ℤ)
  · simp only [hi, true_and]
    rw [Finset.sum_ite_eq' Finset.univ f (fun f' => upd (ix2 e f'))]
    simp
  · simp only [hi, false_and, if_false, Finset.sum_const_zero]

end Cert.Lib.Rows

end
-- ==== Proof.RefValue.lean ====
/-
  The reference program's result, read at an index, is the segment sum G of Spec.lean.

  The reference takes row 0 of the edge list as the sources and row 1 as the targets. A source word that is negative read
  signed is wrapped by adding 50000; under SrcInRange no source is negative, so the wrapped source is the source itself.
  Row e of the gathered table is x's row at the source, read signed and clamped to [0, 49999]; it is multiplied by the
  edge's weight, broadcast along the feature axis; the products are added into a table of zeros at the rows the targets
  name. Read at (i, f) the result is therefore the sum, over the edges whose target is i, of x[src e, f] · w[e].
-/
import proofs.«403076_j88974542503970_2_alg».proof.Proof.RefRun
import proofs.«403076_j88974542503970_2_alg».proof.Proof.Spec
import proofs.«403076_j88974542503970_2_alg».proof.Proof.LibRowTakeScatter
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.ReferenceIdeal.RefValue

open Idealize.ShloMosaic Idealize.ShloMosaic.ValueIdx Idealize.ShloMosaic.StableHlo
open Cert.ReferenceIdeal Cert.ReferenceIdeal.Gen Cert.ReferenceIdeal.Read Cert.SegSum Cert.Lib.Rows

/-! ## Words -/

/-- A 32-bit word read signed is the natural number n < 2³¹ exactly when read unsigned it is n: a word whose top bit is
    set reads negative, and one whose top bit is clear reads the same both ways. -/
theorem toInt_eq_natCast_iff (b : BitVec 32) (n : ℕ) (hn : n < 2 ^ 31) : b.toInt = (n : ℤ) ↔ b.toNat = n := by
  have hb := b.isLt
  rw [BitVec.toInt_eq_toNat_cond]
  split <;> omega

/-- A word below 50000 read signed and then as a natural number is the word read unsigned. -/
theorem toInt_toNat_of_small (s : BitVec 32) (hs : s.toNat < 50000) : s.toInt.toNat = s.toNat := by
  rw [Predicate.toInt_eq_toNat_of_lt (by omega), Int.toNat_natCast]

/-- A word below 50000 is not negative read signed, so the wrap (s + 50000 when s is negative, else s) leaves it
    alone. -/
theorem wrap_of_small (s : BitVec 32) (hs : s.toNat < 50000) :
    Scalar.select (IntOp.cmpi .slt s 0#32) (IntOp.addi s 50000#32) s = s := by
  have hne : ¬ IntOp.cmpi .slt s 0#32 = 1#1 := by
    rw [Predicate.slt_iff_toNat (by omega) (by decide)]
    simp
  rw [eq_zero_of_ne_one hne, select_zero]

/-! ## The edge list's rows and the weights, read through the reference's layout operations -/

/-- The scatter's row number for edge e is the edge's target word. -/
theorem tgt_read (ei : EArr) (e : Fin 1600000) :
    val_main_v15 (F := Ideal) ei (ix2 e (0 : Fin 1)) = tgt ei e := by
  rw [val_main_v15_apply, val_main_v3_apply, val_main_v2_apply]
  refine congrArg ei (funext fun a => ?_)
  match a with
  | ⟨0, _⟩ => exact Fin.ext rfl
  | ⟨1, _⟩ => exact Fin.ext (Nat.mod_eq_of_lt e.isLt)

/-- The flattened row 0 of the edge list at e is the edge's source word. -/
theorem src_read (ei : EArr) (e : Fin 1600000) :
    val_main_v1 (F := Ideal) ei (idx_main_v9 (ix2 e (0 : Fin 1))) = src ei e := by
  rw [val_main_v1_apply, val_main_v0_apply]
  refine congrArg ei (funext fun a => ?_)
  match a with
  | ⟨0, _⟩ => exact Fin.ext rfl
  | ⟨1, _⟩ => exact Fin.ext (Nat.mod_eq_of_lt e.isLt)

/-- Under SrcInRange the gather's row number for edge e, the wrapped source, is the source word. -/
theorem sel_read (ei : EArr) (h : SrcInRange ei) (e : Fin 1600000) :
    val_main_v9 (F := Ideal) ei (ix2 e (0 : Fin 1)) = src ei e := by
  rw [val_main_v9_apply, val_main_v8_apply, val_main_v5_apply, val_main_v7_apply, val_main_v4_apply, val_main_c_apply,
    val_main_v6_apply, val_main_c_0_apply, src_read]
  exact wrap_of_small _ (h e)

/-- The weight broadcast along the feature axis, at (e, f), is edge e's weight. -/
theorem w_read (w : WArr) (e : Fin 1600000) (f : Fin 64) :
    val_main_v12 (F := Ideal) w (ix2 e f) = w (ix1 e) := by
  rw [val_main_v12_apply, val_main_v11_apply]
  refine congrArg w (funext fun a => ?_)
  match a with
  | ⟨0, _⟩ => exact Fin.ext rfl

/-- Under SrcInRange the gathered table at (e, f) is x at the source's row (clamped to the last row), feature f. -/
theorem gather_read (x : XArr) (ei : EArr) (h : SrcInRange ei) (e : Fin 1600000) (f : Fin 64) :
    val_main_v10 (F := Ideal) x ei (ix2 e f) = x (ix2 ⟨min (src ei e).toNat 49999, by omega⟩ f) := by
  unfold val_main_v10
  show Host.gather (rowTakeDims 50000 1600000 64 gather_S50000x64_S1600000x1_S1600000x64_1_0_n_n_0_1_164_wf) x
      (val_main_v9 (F := Ideal) ei) (ix2 e f) = _
  rw [rowTake_apply (by decide)]
  refine congrArg (fun r => x (ix2 r f)) (Fin.ext ?_)
  show min (val_main_v9 (F := Ideal) ei (ix2 e (0 : Fin 1))).toInt.toNat (50000 - 1) = min (src ei e).toNat 49999
  rw [sel_read ei h e, toInt_toNat_of_small _ (h e)]

/-- Under SrcInRange the update at (e, f) is x[src e, f] · w[e]. -/
theorem upd_read (x : XArr) (ei : EArr) (w : WArr) (h : SrcInRange ei) (e : Fin 1600000) (f : Fin 64) :
    val_main_v13 (F := Ideal) x ei w (ix2 e f)
      = x (ix2 ⟨min (src ei e).toNat 49999, by omega⟩ f) * w (ix1 e) := by
  rw [val_main_v13_apply, Ideal.mulf_def, gather_read x ei h e f, w_read w e f]

/-! ## The result -/

/-- At the ideal values the host's accumulating scatter is the exact sum (each element plus the updates that land on
    it), whatever the shapes and the operands. -/
theorem hostScatterAdd_ideal {s si su : Shape} {φ : FTy} {w : ℕ} (d : ScatterDims s si su) (v : FVec Ideal s φ)
    (idx : IVec si w) (upd : FVec Ideal su φ) :
    Host.scatterAdd d v idx upd = Ideal.hostScatterAdd d v idx upd := rfl

/-- The scatter's dimension numbers as the reference prints them are the row scatter's: the row axis inserted and named
    by the scatter index, the feature axis the one window axis. -/
theorem scatterDims_eq :
    scatter_S50000x64_S1600000x1_S1600000x64_1_0_0_1
      = rowScatterDims 50000 1600000 64 scatter_S50000x64_S1600000x1_S1600000x64_1_0_0_1_wf := rfl

/-- THE REFERENCE'S VALUE: under SrcInRange the reference's result is the segment sum G. -/
theorem ref_eq (x : XArr) (ei : EArr) (w : WArr) (h : SrcInRange ei) :
    Read.val_main_v16 (F := Ideal) x ei w = G x ei w := by
  funext y
  obtain ⟨i, f, rfl⟩ : ∃ i f, y = ix2 i f := ⟨y 0, y 1, eq_ix2 y⟩
  unfold Read.val_main_v16
  rw [hostScatterAdd_ideal, scatterDims_eq, rowScatterAdd_apply]
  rw [val_main_v14_apply, val_main_cst_apply, Ideal.ofBits_def, Ideal.ofBits_zero_f32, zero_add]
  unfold G
  refine Finset.sum_congr rfl fun e _ => ?_
  rw [tgt_read ei e, upd_read x ei w h e f]
  show (if (tgt ei e).toInt = (i.val : ℤ) then _ else (0 : EReal)) = if (tgt ei e).toNat = i.val then _ else 0
  have hi : i.val < 2 ^ 31 := by have := i.isLt; omega
  by_cases hc : (tgt ei e).toNat = i.val
  · rw [if_pos hc, if_pos ((toInt_eq_natCast_iff _ _ hi).mpr hc)]
  · rw [if_neg hc, if_neg (fun hc' => hc ((toInt_eq_natCast_iff _ _ hi).mp hc'))]

end Cert.ReferenceIdeal.RefValue

end
-- ==== Proof.PreDecode.lean ====
/-
  The printed precondition read back: its last conjunct is jnp.all((edge_index[0] >= 0) & (edge_index[0] < 50000)), so
  when the precondition's bit is 1 every source word of the edge list, read unsigned, is below 50000.
-/
import proofs.«403076_j88974542503970_2_alg».proof.Pre_finite_inputs
import proofs.«403076_j88974542503970_2_alg».proof.Proof.Gen.Pre_finite_inputs
import proofs.«403076_j88974542503970_2_alg».proof.Proof.Spec
import Idealize.ShloMosaic.Lib.ReduceAll
import Idealize.ShloMosaic.Lib.StableHlo.Predicate
import Idealize.ShloMosaic.Lib.Pipeline.Value
import Idealize.ShloMosaic.Lib.ValueIdx

namespace Cert.Pre_finite_inputs.Decode

open Idealize.ShloMosaic Idealize.ShloMosaic.ValueIdx Cert.Pre_finite_inputs Cert.Pre_finite_inputs.Facts

/-- The scalar shape has exactly one index. -/
theorem subsingleton_scalarIdx : Subsingleton S_.Idx := ⟨fun a b => funext fun d => d.elim0⟩

/-- Row 0 of the edge list, flattened to one axis and read at e, is the edge list's word at (0, e): the flat position of
    (0, e) in a 1 × 1600000 array is e, and the slice starts at offset (0, 0). -/
theorem row0_apply (ei : IVec S2x1600000 32) (e : Fin 1600000) :
    shapeCast S1600000 (extractStridedSlice S1x1600000 ![0, 0] ei slices_S2x1600000_S1x1600000_0_0)
        shapeCasts_S1x1600000_S1600000 (ix1 e) = ei (ix2 (0 : Fin 2) e) := by
  refine (shapeCast_apply _ shapeCasts_S1x1600000_S1600000 (ix1 e) (ix2 (0 : Fin 1) e) ?_).trans ?_
  · rewrite [Shape.rowMajor_val_two, Shape.rowMajor_val_one]
    show 0 * 1600000 + e.val = e.val
    omega
  · exact extractStridedSlice_apply ![0, 0] ei slices_S2x1600000_S1x1600000_0_0 (ix2 (0 : Fin 1) e) (ix2 (0 : Fin 2) e)
      (fun a => match a with
        | ⟨0, _⟩ => by show (0 : Nat) = 0 + 0; omega
        | ⟨1, _⟩ => by show e.val = 0 + e.val; omega)

/-- A 32-bit word that is at least 0 and below 50000 when read signed is below 50000 when read unsigned: a word whose
    signed reading is non-negative has its top bit clear, so both readings agree. -/
theorem toNat_lt_of_signed (s : BitVec 32) (h0 : (0#32 : BitVec 32).toInt ≤ s.toInt)
    (h1 : s.toInt < (50000#32 : BitVec 32).toInt) : s.toNat < 50000 := by
  have e0 : (0#32 : BitVec 32).toInt = 0 := by decide
  have e1 : (50000#32 : BitVec 32).toInt = 50000 := by decide
  rw [e0] at h0
  rw [e1] at h1
  have hs := s.isLt
  rw [BitVec.toInt_eq_toNat_cond] at h0 h1
  split at h0 <;> omega

/-- The precondition's bit is 1 only if every source of the edge list is a node. -/
theorem srcInRange_of_pre (x : FVec Ideal S50000x64 .f32) (ei : IVec S2x1600000 32) (w : FVec Ideal S1600000 .f32)
    (h : fn (F := Ideal) x ei w = fun _ => 1#1) : Cert.SegSum.SrcInRange ei := by
  intro e
  have h0 := congrFun h ix0
  dsimp only [fn, fn_part1] at h0
  obtain ⟨-, hr⟩ := IntOp.andi_eq_one.1 h0
  haveI := subsingleton_scalarIdx
  have hb := Host.reduce_andi_all _ _ _ _ _ hr (ix1 e)
  obtain ⟨hge, hlt⟩ := IntOp.andi_eq_one.1 hb
  have hge' := IntOp.cmpi_sge.1 hge
  have hlt' := IntOp.cmpi_slt.1 hlt
  rw [row0_apply] at hge' hlt'
  exact toNat_lt_of_signed _ hge' hlt'

end Cert.Pre_finite_inputs.Decode
-- ==== Proof.BodyTerms.lean ====
/-
  The kernel body's arithmetic, named. One grid point takes 1024 edges: their sources s (a column), targets t (a row) and
  weights w (a column), the whole padded node table, and the running output table. It GATHERS each edge's source row by
  49 one-hot products, one per block of 1024 nodes — block b's one-hot matrix has a one at (e, j) when edge e's source is
  node base + j — accumulated from zero; multiplies by the weights; and SCATTERS by 49 more one-hot products — block b's
  matrix has a one at (p, e) when edge e's target is node base + p — each added to that block of the running output.
  Here: those products as definitions at any float instance, and what they are at the ideal instance, element by element.
-/
import proofs.«403076_j88974542503970_2_alg».proof.Proof.Gen.KernelIdeal
import Idealize.ShloMosaic.Lib.ValueIdx
import Idealize.ShloMosaic.Lib.Pipeline.Value
import Idealize.ShloMosaic.Lib.IdealHost
import Idealize.ShloMosaic.PureOps.Ideal.Laws
import Idealize.ShloMosaic.Lib.StableHlo.Predicate

noncomputable section

open scoped BigOperators

namespace Cert.KernelIdeal.Body

open Cert.KernelIdeal Cert.KernelIdeal.Gen Idealize.ShloMosaic Idealize.ShloMosaic.ValueIdx

variable {F : FTy → Type} [FloatOps F]

/-! ## The terms, at any float instance -/

/-- The gather's one-hot matrix of a node block: one at (e, j) when edge e's source is node `base + j`. -/
def ohG (base : BitVec 32) (s : IVec S1024x1 32) : FVec F S1024x1024 .f32 :=
  select (cmpi .eq (broadcastTo S1024x1024 s broadcasts_S1024x1_S1024x1024)
      (broadcastTo S1024x1024 (addi (broadcast S1x1024 base) (iota .tc S1x1024 32 [1] iota_S1x1024_d1_w32)) broadcasts_S1x1024_S1024x1024))
    (broadcast S1024x1024 (Scalar.ofBits .f32 0x3F800000#32)) (broadcast S1024x1024 (Scalar.ofBits .f32 0x00000000#32))

/-- One gather step: the accumulator plus the block's one-hot matrix times the block's rows. -/
def gstep (acc : FVec F S1024x64 .f32) (base : BitVec 32) (s : IVec S1024x1 32) (xb : Vec F S1024x64 .f32) : FVec F S1024x64 .f32 :=
  addf acc (matmul dot_S1024x1024_S1024x64_S1024x64_1_0_0_1_n_n none (truncf .bf16 (ohG base s) bitsLt_bf16_f32)
    (truncf .bf16 (shapeCast S1024x64 xb shapeCasts_S1024x64_S1024x64) bitsLt_bf16_f32) (constant S1024x64 .f32 0x00000000#32))

/-- The gather: the steps over a list of node blocks (each with its first node), the LAST block first, from zero. -/
def gchain (s : IVec S1024x1 32) : List (BitVec 32 × Vec F S1024x64 .f32) → FVec F S1024x64 .f32
  | [] => broadcast S1024x64 (Scalar.ofBits .f32 0x00000000#32)
  | (b, xb) :: rest => gstep (gchain s rest) b s xb

/-- The weighted messages: the gathered rows times the edges' weights. -/
def weighted (s : IVec S1024x1 32) (w : FVec F S1024x1 .f32) (L : List (BitVec 32 × Vec F S1024x64 .f32)) : FVec F S1024x64 .bf16 :=
  truncf .bf16 (mulf (gchain s L) (broadcastTo S1024x64 w broadcasts_S1024x1_S1024x64)) bitsLt_bf16_f32

/-- The scatter's one-hot matrix of a node block: one at (p, e) when edge e's target is node `base + p`. -/
def ohS (base : BitVec 32) (t : IVec S1x1024 32) : FVec F S1024x1024 .f32 :=
  select (cmpi .eq (broadcastTo S1024x1024 (addi (broadcast S1024x1 base) (iota .tc S1024x1 32 [0] iota_S1024x1_d0_w32)) broadcasts_S1024x1_S1024x1024)
      (broadcastTo S1024x1024 t broadcasts_S1x1024_S1024x1024))
    (broadcast S1024x1024 (Scalar.ofBits .f32 0x3F800000#32)) (broadcast S1024x1024 (Scalar.ofBits .f32 0x00000000#32))

/-- One scatter step: the block's running rows plus the block's one-hot matrix times the weighted messages. -/
def sstep (base : BitVec 32) (t : IVec S1x1024 32) (W : FVec F S1024x64 .bf16) (cur : Vec F S1024x64 .f32) : FVec F S1024x64 .f32 :=
  addf (shapeCast S1024x64 cur shapeCasts_S1024x64_S1024x64)
    (matmul dot_S1024x1024_S1024x64_S1024x64_1_0_0_1_n_n none (truncf .bf16 (ohS base t) bitsLt_bf16_f32) W (constant S1024x64 .f32 0x00000000#32))

/-! ## At the ideal instance, element by element -/

/-- Entry (e, j) of the gather's one-hot matrix. -/
theorem ohG_apply (base : BitVec 32) (s : IVec S1024x1 32) (e j : Fin 1024) :
    ohG (F := Ideal) base s (ix2 e j) = if s (ix2 e (0 : Fin 1)) = base + BitVec.ofNat 32 j.val then (1 : EReal) else 0 := by
  unfold ohG
  rw [select_apply, broadcast_apply, broadcast_apply]
  have h1 : broadcastTo S1024x1024 s broadcasts_S1024x1_S1024x1024 (ix2 e j) = s (ix2 e (0 : Fin 1)) :=
    broadcastTo_apply s _ (ix2 e j) (ix2 e (0 : Fin 1)) (fun a => match a with | ⟨0, _⟩ => rfl | ⟨1, _⟩ => rfl)
  have h2 : broadcastTo S1024x1024 (addi (broadcast S1x1024 base) (iota .tc S1x1024 32 [1] iota_S1x1024_d1_w32)) broadcasts_S1x1024_S1024x1024 (ix2 e j)
      = base + BitVec.ofNat 32 j.val := by
    rw [broadcastTo_apply _ _ (ix2 e j) (ix2 (0 : Fin 1) j) (fun a => match a with | ⟨0, _⟩ => rfl | ⟨1, _⟩ => rfl)]
    show base + iota .tc S1x1024 32 [1] iota_S1x1024_d1_w32 (ix2 (0 : Fin 1) j) = _
    rw [iota_single_apply]
  show Scalar.select (IntOp.cmpi .eq (broadcastTo S1024x1024 s broadcasts_S1024x1_S1024x1024 (ix2 e j)) (broadcastTo S1024x1024 _ broadcasts_S1x1024_S1024x1024 (ix2 e j))) _ _ = _
  rw [h1, h2]
  by_cases h : s (ix2 e (0 : Fin 1)) = base + BitVec.ofNat 32 j.val
  · rw [if_pos h, StableHlo.Predicate.cmpi_eq_iff.mpr h, ValueIdx.select_one]; exact Ideal.ofBits_one_f32
  · rw [if_neg h, ValueIdx.eq_zero_of_ne_one (fun hc => h (StableHlo.Predicate.cmpi_eq_iff.mp hc)), ValueIdx.select_zero]; exact Ideal.ofBits_zero_f32

/-- Entry (p, e) of the scatter's one-hot matrix. -/
theorem ohS_apply (base : BitVec 32) (t : IVec S1x1024 32) (p e : Fin 1024) :
    ohS (F := Ideal) base t (ix2 p e) = if base + BitVec.ofNat 32 p.val = t (ix2 (0 : Fin 1) e) then (1 : EReal) else 0 := by
  unfold ohS
  rw [select_apply, broadcast_apply, broadcast_apply]
  have h1 : broadcastTo S1024x1024 t broadcasts_S1x1024_S1024x1024 (ix2 p e) = t (ix2 (0 : Fin 1) e) :=
    broadcastTo_apply t _ (ix2 p e) (ix2 (0 : Fin 1) e) (fun a => match a with | ⟨0, _⟩ => rfl | ⟨1, _⟩ => rfl)
  have h2 : broadcastTo S1024x1024 (addi (broadcast S1024x1 base) (iota .tc S1024x1 32 [0] iota_S1024x1_d0_w32)) broadcasts_S1024x1_S1024x1024 (ix2 p e)
      = base + BitVec.ofNat 32 p.val := by
    rw [broadcastTo_apply _ _ (ix2 p e) (ix2 p (0 : Fin 1)) (fun a => match a with | ⟨0, _⟩ => rfl | ⟨1, _⟩ => rfl)]
    show base + iota .tc S1024x1 32 [0] iota_S1024x1_d0_w32 (ix2 p (0 : Fin 1)) = _
    rw [iota_single_apply]
  show Scalar.select (IntOp.cmpi .eq (broadcastTo S1024x1024 _ broadcasts_S1024x1_S1024x1024 (ix2 p e)) (broadcastTo S1024x1024 t broadcasts_S1x1024_S1024x1024 (ix2 p e))) _ _ = _
  rw [h1, h2]
  by_cases h : base + BitVec.ofNat 32 p.val = t (ix2 (0 : Fin 1) e)
  · rw [if_pos h, StableHlo.Predicate.cmpi_eq_iff.mpr h, ValueIdx.select_one]; exact Ideal.ofBits_one_f32
  · rw [if_neg h, ValueIdx.eq_zero_of_ne_one (fun hc => h (StableHlo.Predicate.cmpi_eq_iff.mp hc)), ValueIdx.select_zero]; exact Ideal.ofBits_zero_f32

/-! ### The matrix product at an index: a sum over the contracted axis -/

theorem lhs_mm_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_mm_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_mm_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_mm_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The [1024,1024] × [1024,64] product into a zero accumulator, at (e, f): the sum over j of A (e, j) · B (j, f). -/
theorem mm_apply (A : FVec Ideal S1024x1024 .bf16) (B : FVec Ideal S1024x64 .bf16) (e : Fin 1024) (f : Fin 64) :
    matmul dot_S1024x1024_S1024x64_S1024x64_1_0_0_1_n_n none A B (constant S1024x64 .f32 0x00000000#32) (ix2 e f) = ∑ j : Fin 1024, A (ix2 e j) * B (ix2 j f) := by
  show FloatOps.matmul dot_S1024x1024_S1024x64_S1024x64_1_0_0_1_n_n none A B (constant S1024x64 .f32 0x00000000#32) (ix2 e f) = _
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 e f) ((ValueIdx.contrEquiv1 dot_S1024x1024_S1024x64_S1024x64_1_0_0_1_n_n 1024 rfl rfl).symm k) = ix2 e k := funext fun a => Fin.ext (by
    match a with
    | ⟨0, _⟩ => exact lhs_mm_0 _ _
    | ⟨1, _⟩ => exact (lhs_mm_1 _ _).trans hk)
  have er : dot_S1024x1024_S1024x64_S1024x64_1_0_0_1_n_n.rhsIdx (ix2 e f) ((ValueIdx.contrEquiv1 dot_S1024x1024_S1024x64_S1024x64_1_0_0_1_n_n 1024 rfl rfl).symm k) = ix2 k f := funext fun a => Fin.ext (by
    match a with
    | ⟨0, _⟩ => exact (rhs_mm_0 _ _).trans hk
    | ⟨1, _⟩ => exact rhs_mm_1 _ _)
  rw [el, er]

/-- One gather step at (e, f): the accumulator plus the sum over the block's nodes j of the one-hot entry times row j. -/
theorem gstep_apply (acc : FVec Ideal S1024x64 .f32) (base : BitVec 32) (s : IVec S1024x1 32) (xb : Vec Ideal S1024x64 .f32) (e : Fin 1024) (f : Fin 64) :
    gstep acc base s xb (ix2 e f)
      = acc (ix2 e f) + ∑ j : Fin 1024, (if s (ix2 e (0 : Fin 1)) = base + BitVec.ofNat 32 j.val then (1 : EReal) else 0) * xb (ix2 j f) := by
  unfold gstep
  rw [addf_apply, mm_apply]
  refine congrArg _ (Finset.sum_congr rfl fun j _ => ?_)
  rw [truncf_apply, truncf_apply, ohG_apply, shapeCast_self]

/-- One scatter step at (p, f): the running element plus the sum over the edges e of the one-hot entry times W (e, f). -/
theorem sstep_apply (base : BitVec 32) (t : IVec S1x1024 32) (W : FVec Ideal S1024x64 .bf16) (cur : Vec Ideal S1024x64 .f32) (p : Fin 1024) (f : Fin 64) :
    sstep base t W cur (ix2 p f)
      = cur (ix2 p f) + ∑ e : Fin 1024, (if base + BitVec.ofNat 32 p.val = t (ix2 (0 : Fin 1) e) then (1 : EReal) else 0) * W (ix2 e f) := by
  unfold sstep
  rw [addf_apply, mm_apply, shapeCast_self]
  refine congrArg _ (Finset.sum_congr rfl fun e _ => ?_)
  rw [truncf_apply, ohS_apply]

/-- The weighted messages at (e, f): the gathered row's element times edge e's weight. -/
theorem weighted_apply (s : IVec S1024x1 32) (w : FVec Ideal S1024x1 .f32) (L : List (BitVec 32 × Vec Ideal S1024x64 .f32)) (e : Fin 1024) (f : Fin 64) :
    weighted s w L (ix2 e f) = gchain s L (ix2 e f) * w (ix2 e (0 : Fin 1)) := by
  unfold weighted
  rw [truncf_apply, mulf_apply,
    broadcastTo_apply w _ (ix2 e f) (ix2 e (0 : Fin 1)) (fun a => match a with | ⟨0, _⟩ => rfl | ⟨1, _⟩ => rfl)]

end Cert.KernelIdeal.Body

end
-- ==== Proof.BodyRun.lean ====
/-
  What one grid point's body leaves in the output table, element by element, at the ideal instance. The body's run is
  given as a list of the stores it made, last first, each a block of 1024 rows with its payload; the payloads are the
  steps named in BodyTerms. Read in order: the 49 gather steps build, for edge e with source word σ, the table's row σ
  (zero if σ names no row of the padded table) — each step adds the one matching row of its block or nothing; the 49
  scatter steps add to every row r the weighted messages of the edges whose target word is r. At the first grid point
  the table is zeroed first; at the others it holds what the point before left.
-/
import proofs.«403076_j88974542503970_2_alg».proof.Proof.Gen.KernelIdeal.Frame
import proofs.«403076_j88974542503970_2_alg».proof.Proof.BodyTerms
import Idealize.ShloMosaic.Lib.Pipeline.Value
import Idealize.ShloMosaic.Lib.Tactic

set_option maxRecDepth 65536

noncomputable section

open scoped BigOperators

namespace Cert.KernelIdeal.Body

open Cert.KernelIdeal Cert.KernelIdeal.Gen Idealize.ShloMosaic Idealize.ShloMosaic.ValueIdx Idealize.ShloMosaic.TcCoe
open Idealize.ShloMosaic.Tactic Idealize.SL.Sem

theorem hz2 : (![0, 0] : Fin 2 → Nat) = fun _ => 0 := funext fun a => by fin_cases a <;> rfl

/-! ## Loads -/

/-- A block of 1024 rows loaded from a whole buffer holding the table X: element (j, f) is X (off + j, f). -/
theorem readBlk_apply (a : Memref sig .tc .vmem S50176x64 .f32) (h : a.IsWhole) (X : Vec Ideal S50176x64 .f32) (off : ℕ)
    (hoff : off + 1024 ≤ 50176) (inb : ∀ d, (![off, 0] : Fin 2 → ℕ) d + S1024x64.size d ≤ S50176x64.size d) (j : Fin 1024) (f : Fin 64) :
    a.view.readAt (Elt Ideal) (Rect.unit (s := S50176x64) ![off, 0] S1024x64.size inb).toLoadRect (h.unread X) (ix2 j f)
      = X (ix2 ⟨off + j.val, by omega⟩ f) := by
  rw [View.readAt_eq_ld, h.read_unread]
  show X ((Rect.unit (s := S50176x64) ![off, 0] S1024x64.size inb).idx (ix2 j f)) = _
  congr 1
  funext d
  apply Fin.ext
  match d with
  | ⟨0, _⟩ => show off + 1 * j.val = off + j.val; omega
  | ⟨1, _⟩ => show 0 + 1 * f.val = f.val; omega

/-- A word is `base + j` with no wrap-around exactly when its value is. -/
theorem eq_add_ofNat_iff (σ : BitVec 32) (off j : ℕ) (h : off + j < 2 ^ 32) :
    σ = BitVec.ofNat 32 off + BitVec.ofNat 32 j ↔ σ.toNat = off + j := by
  rw [← BitVec.toNat_inj, BitVec.toNat_add, BitVec.toNat_ofNat, BitVec.toNat_ofNat]
  constructor <;> intro h' <;> omega

/-! ## The gather -/

/-- The gathered row of an edge with source word σ over the first 1024·n rows of the padded table: row σ if it is
    among them, else zero. -/
def gval (x3 : Vec Ideal S50176x64 .f32) (n : ℕ) (σ : BitVec 32) (f : Fin 64) : EReal :=
  if h : σ.toNat < 1024 * n ∧ σ.toNat < 50176 then x3 (ix2 ⟨σ.toNat, h.2⟩ f) else 0

/-- The accumulator g holds the gathered rows over the first 1024·n rows of the table. -/
def IsG (s : IVec S1024x1 32) (x3 : Vec Ideal S50176x64 .f32) (n : ℕ) (g : FVec Ideal S1024x64 .f32) : Prop :=
  ∀ (e : Fin 1024) (f : Fin 64), g (ix2 e f) = gval x3 n (s (ix2 e (0 : Fin 1))) f

theorem isG_zero (s : IVec S1024x1 32) (x3 : Vec Ideal S50176x64 .f32) :
    IsG s x3 0 (broadcast S1024x64 (Scalar.ofBits .f32 0x00000000#32)) := by
  intro e f
  rw [broadcast_apply, gval, dif_neg (by omega)]
  exact Ideal.ofBits_zero_f32

/-- One gather step extends the gathered rows by block n: the block's one-hot row of edge e has its one at the source's
    place when the source is in the block, and is zero otherwise. -/
theorem isG_step (s : IVec S1024x1 32) (x3 : Vec Ideal S50176x64 .f32) (n : ℕ) (hn : n < 49) (off : ℕ) (hoff : off = 1024 * n)
    (b : BitVec 32) (hb : b = BitVec.ofNat 32 off)
    (inb : ∀ d, (![off, 0] : Fin 2 → ℕ) d + S1024x64.size d ≤ S50176x64.size d)
    (a4 : Memref sig .tc .vmem S50176x64 .f32) (h4 : a4.IsWhole) (acc : FVec Ideal S1024x64 .f32) (hacc : IsG s x3 n acc) :
    IsG s x3 (n + 1) (gstep acc b s (a4.view.readAt (Elt Ideal) (Rect.unit (s := S50176x64) ![off, 0] S1024x64.size inb).toLoadRect (h4.unread x3))) := by
  intro e f
  have ho : off + 1024 ≤ 50176 := by omega
  rw [gstep_apply, hacc e f]
  generalize s (ix2 e (0 : Fin 1)) = σ
  subst hb
  simp only [readBlk_apply a4 h4 x3 off ho inb]
  unfold gval
  by_cases hlo : σ.toNat < off
  · -- the source is in an earlier block: nothing of this block matches
    rw [Finset.sum_eq_zero (fun j _ => by
      rw [if_neg (fun hc => by have := (eq_add_ofNat_iff σ off j.val (by omega)).mp hc; omega), zero_mul]), add_zero]
    rw [dif_pos (by omega), dif_pos (by omega)]
  · by_cases hhi : σ.toNat < off + 1024
    · -- the source is row off + j₀ of this block
      have hj0 : σ.toNat - off < 1024 := by omega
      rw [dif_neg (by omega), zero_add, dif_pos (by omega)]
      rw [Finset.sum_eq_single (⟨σ.toNat - off, hj0⟩ : Fin 1024)]
      · rw [if_pos ((eq_add_ofNat_iff σ off _ (by omega)).mpr (by show σ.toNat = off + (σ.toNat - off); omega)), one_mul]
        congr 2; apply Fin.ext; show off + (σ.toNat - off) = σ.toNat; omega
      · intro j _ hne
        rw [if_neg (fun hc => hne (Fin.ext (by have := (eq_add_ofNat_iff σ off j.val (by omega)).mp hc; show j.val = σ.toNat - off; omega))), zero_mul]
      · intro h; exact absurd (Finset.mem_univ _) h
    · -- the source is beyond this block
      rw [Finset.sum_eq_zero (fun j _ => by
        rw [if_neg (fun hc => by have := (eq_add_ofNat_iff σ off j.val (by omega)).mp hc; omega), zero_mul]), add_zero]
      rw [dif_neg (by omega), dif_neg (by omega)]

/-! ## The scatter -/

/-- A store into the output table: a rectangle and its payload. -/
abbrev PieceI : Type := View.Piece (Elt Ideal) S50176x64 .f32

/-- What the scatter adds to element (r, f): the weighted messages of the edges whose target word is r. -/
def scat (t : IVec S1x1024 32) (W : FVec Ideal S1024x64 .bf16) (r : Fin 50176) (f : Fin 64) : EReal :=
  ∑ e : Fin 1024, (if BitVec.ofNat 32 r.val = t (ix2 (0 : Fin 1) e) then (1 : EReal) else 0) * W (ix2 e f)

/-- After a last store of a block of 1024 rows from row `off`, an element of the block reads the store's payload, any
    other what the earlier stores left. -/
theorem canon_cons_block (off : ℕ) (hoff : off + 1024 ≤ 50176)
    (inb : ∀ d, (![off, 0] : Fin 2 → ℕ) d + S1024x64.size d ≤ S50176x64.size d)
    (w : (Rect.unit (s := S50176x64) ![off, 0] S1024x64.size inb).shape.Idx → EReal) (L : List PieceI) (r : Fin 50176) (f : Fin 64) :
    View.canon ((⟨Rect.unit (s := S50176x64) ![off, 0] S1024x64.size inb, w⟩ : PieceI) :: L) (ix2 r f)
      = if h : off ≤ r.val ∧ r.val < off + 1024 then w (ix2 ⟨r.val - off, by omega⟩ f) else View.canon L (ix2 r f) := by
  by_cases h : off ≤ r.val ∧ r.val < off + 1024
  · rw [dif_pos h]
    have e : (Rect.unit (s := S50176x64) ![off, 0] S1024x64.size inb).emb (ix2 ⟨r.val - off, by omega⟩ f) = ix2 r f := by
      funext d; apply Fin.ext
      match d with
      | ⟨0, _⟩ => show off + 1 * (r.val - off) = r.val; omega
      | ⟨1, _⟩ => show 0 + 1 * f.val = f.val; omega
    rw [← e, View.canon_cons_emb]
  · rw [dif_neg h]
    refine View.canon_cons_of_not_mem _ _ (fun hm => h ?_)
    have h0 := (Rect.mem_set_unit (s := S50176x64) (off := ![off, 0]) (size := S1024x64.size) (inb := inb) (i := ix2 r f)).mp hm (0 : Fin 2)
    exact ⟨h0.1, h0.2⟩

theorem ofNat_add_sub (off r : ℕ) (h : off ≤ r) : BitVec.ofNat 32 off + BitVec.ofNat 32 (r - off) = BitVec.ofNat 32 r := by
  rw [← BitVec.ofNat_add]; congr 1; omega

/-- The rows below 1024·n hold their base value plus the scatter's sum. -/
def Below (t : IVec S1x1024 32) (W : FVec Ideal S1024x64 .bf16) (base : Fin 50176 → Fin 64 → EReal) (n : ℕ) (L : List PieceI) : Prop :=
  ∀ (r : Fin 50176) (f : Fin 64), r.val < 1024 * n → View.canon L (ix2 r f) = base r f + scat t W r f

theorem below_nil (t : IVec S1x1024 32) (W : FVec Ideal S1024x64 .bf16) (base : Fin 50176 → Fin 64 → EReal) : Below t W base 0 [] :=
  fun r f h => absurd h (by omega)

/-- One scatter step over a table holding `xo`: block n's rows become their old value plus the scatter's sum. -/
theorem below_cons (t : IVec S1x1024 32) (W : FVec Ideal S1024x64 .bf16) (xo : Vec Ideal S50176x64 .f32) (n : ℕ) (hn : n < 49)
    (off : ℕ) (hoff : off = 1024 * n) (b : BitVec 32) (hb : b = BitVec.ofNat 32 off)
    (inb : ∀ d, (![off, 0] : Fin 2 → ℕ) d + S1024x64.size d ≤ S50176x64.size d)
    (a5 : Memref sig .tc .vmem S50176x64 .f32) (h5 : a5.IsWhole) (L : List PieceI)
    (hL : Below t W (fun r f => xo (ix2 r f)) n L) :
    Below t W (fun r f => xo (ix2 r f)) (n + 1)
      ((⟨Rect.unit (s := S50176x64) ![off, 0] S1024x64.size inb,
          sstep b t W (a5.view.readAt (Elt Ideal) (Rect.unit (s := S50176x64) ![off, 0] S1024x64.size inb).toLoadRect (h5.unread xo))⟩ : PieceI) :: L) := by
  intro r f hr
  have ho : off + 1024 ≤ 50176 := by omega
  rw [canon_cons_block off ho]
  by_cases h : off ≤ r.val ∧ r.val < off + 1024
  · rw [dif_pos h, sstep_apply, readBlk_apply a5 h5 xo off ho inb]
    subst hb
    congr 1
    · congr 2; apply Fin.ext; show off + (r.val - off) = r.val; omega
    · unfold scat
      refine Finset.sum_congr rfl fun e _ => ?_
      rw [show (⟨r.val - off, by omega⟩ : Fin 1024).val = r.val - off from rfl, ofNat_add_sub off r.val h.1]
  · rw [dif_neg h]
    exact hL r f (by omega)

/-- The rows below 1024·n hold the scatter's sum over zero, the rows from there on zero. -/
def Upto (t : IVec S1x1024 32) (W : FVec Ideal S1024x64 .bf16) (n : ℕ) (L : List PieceI) : Prop :=
  ∀ (r : Fin 50176) (f : Fin 64), View.canon L (ix2 r f) = if r.val < 1024 * n then 0 + scat t W r f else 0

/-- The zeroing store alone. -/
theorem upto_zero (t : IVec S1x1024 32) (W : FVec Ideal S1024x64 .bf16)
    (inb : ∀ d, (![0, 0] : Fin 2 → ℕ) d + S50176x64.size d ≤ S50176x64.size d) :
    Upto t W 0 [(⟨Rect.unit (s := S50176x64) ![0, 0] S50176x64.size inb, k0_pay2 (F := Ideal)⟩ : PieceI)] := by
  intro r f
  rw [View.canon_unit_zero hz2, if_neg (by omega)]
  unfold k0_pay2
  rw [broadcast_apply]
  exact Ideal.ofBits_zero_f32

/-- One scatter step over the zeroed table: block n's rows, read back through the earlier stores (they are zero there),
    become the scatter's sum. -/
theorem upto_cons (t : IVec S1x1024 32) (W : FVec Ideal S1024x64 .bf16) (n : ℕ) (hn : n < 49)
    (off : ℕ) (hoff : off = 1024 * n) (b : BitVec 32) (hb : b = BitVec.ofNat 32 off)
    (inb : ∀ d, (![off, 0] : Fin 2 → ℕ) d + S1024x64.size d ≤ S50176x64.size d)
    (v : View sig .tc .vmem S50176x64 .f32) (L : List PieceI) (hL : Upto t W n L) :
    Upto t W (n + 1)
      ((⟨Rect.unit (s := S50176x64) ![off, 0] S1024x64.size inb,
          sstep b t W (v.readCov L (Rect.unit (s := S50176x64) ![off, 0] S1024x64.size inb).toLoadRect)⟩ : PieceI) :: L) := by
  intro r f
  have ho : off + 1024 ≤ 50176 := by omega
  rw [canon_cons_block off ho]
  by_cases h : off ≤ r.val ∧ r.val < off + 1024
  · rw [dif_pos h, sstep_apply, if_pos (by omega), View.readCov_eq_canon']
    subst hb
    congr 1
    · show View.canon L ((Rect.unit (s := S50176x64) ![off, 0] S1024x64.size inb).idx (ix2 ⟨r.val - off, by omega⟩ f)) = 0
      have e : (Rect.unit (s := S50176x64) ![off, 0] S1024x64.size inb).idx (ix2 ⟨r.val - off, by omega⟩ f) = ix2 r f := by
        funext d; apply Fin.ext
        match d with
        | ⟨0, _⟩ => show off + 1 * (r.val - off) = r.val; omega
        | ⟨1, _⟩ => show 0 + 1 * f.val = f.val; omega
      rw [e, hL r f, if_neg (by omega)]
    · unfold scat
      refine Finset.sum_congr rfl fun e _ => ?_
      rw [show (⟨r.val - off, by omega⟩ : Fin 1024).val = r.val - off from rfl, ofNat_add_sub off r.val h.1]
  · rw [dif_neg h, hL r f]
    by_cases h' : r.val < off
    · rw [if_pos (by omega), if_pos (by omega)]
    · rw [if_neg (by omega), if_neg (by omega)]

/-! ## One grid point -/

/-- What one grid point adds to element (r, f) of the output table, from its blocks: the sources x0, the targets x1,
    the weights x2 (1024 edges each) and the padded node table x3 — over the edges e whose target word is r, the
    table's row of e's source (zero if the source names no row) times e's weight. -/
def contrib (x0 : Vec Ideal S1024x1 .i32) (x1 : Vec Ideal S1x1024 .i32) (x2 : Vec Ideal S1024x1 .f32) (x3 : Vec Ideal S50176x64 .f32)
    (r : Fin 50176) (f : Fin 64) : EReal :=
  ∑ e : Fin 1024, (if BitVec.ofNat 32 r.val = x1 (ix2 (0 : Fin 1) e) then (1 : EReal) else 0)
    * (gval x3 49 (x0 (ix2 e (0 : Fin 1))) f * x2 (ix2 e (0 : Fin 1)))

/-- The sources, targets and weights as the body reads them off its whole staging buffers. -/
theorem srcs_eq (a1 : Memref sig .tc .vmem S1024x1 .i32) (h1 : a1.IsWhole) (x0 : Vec Ideal S1024x1 .i32) :
    k0_pay3 (F := Ideal) (a1.view.readAt (Elt Ideal) (Rect.unit (s := S1024x1) ![0, 0] S1024x1.size inb_S1024x1_S1024x1_0_0).toLoadRect (h1.unread x0)) = x0 := by
  unfold k0_pay3
  simp only [View.readAt_eq_ld, h1.read_unread, View.ld_unit_zero (S := S1024x1) hz2, shapeCast_self]
theorem tgts_eq (a2 : Memref sig .tc .vmem S1x1024 .i32) (h2 : a2.IsWhole) (x1 : Vec Ideal S1x1024 .i32) :
    k0_pay4 (F := Ideal) (a2.view.readAt (Elt Ideal) (Rect.unit (s := S1x1024) ![0, 0] S1x1024.size inb_S1x1024_S1x1024_0_0).toLoadRect (h2.unread x1)) = x1 := by
  unfold k0_pay4
  simp only [View.readAt_eq_ld, h2.read_unread, View.ld_unit_zero (S := S1x1024) hz2, shapeCast_self]
theorem wts_eq (a3 : Memref sig .tc .vmem S1024x1 .f32) (h3 : a3.IsWhole) (x2 : Vec Ideal S1024x1 .f32) :
    k0_pay5 (F := Ideal) (a3.view.readAt (Elt Ideal) (Rect.unit (s := S1024x1) ![0, 0] S1024x1.size inb_S1024x1_S1024x1_0_0).toLoadRect (h3.unread x2)) = x2 := by
  unfold k0_pay5
  simp only [View.readAt_eq_ld, h3.read_unread, View.ld_unit_zero (S := S1024x1) hz2, shapeCast_self]

/-- A table of weighted messages is the gathered rows times the weights. -/
def IsW (x0 : Vec Ideal S1024x1 .i32) (x2 : Vec Ideal S1024x1 .f32) (x3 : Vec Ideal S50176x64 .f32) (W : FVec Ideal S1024x64 .bf16) : Prop :=
  ∀ (e : Fin 1024) (f : Fin 64), W (ix2 e f) = gval x3 49 (x0 (ix2 e (0 : Fin 1))) f * x2 (ix2 e (0 : Fin 1))

theorem isW_of (x0 : Vec Ideal S1024x1 .i32) (x2 : Vec Ideal S1024x1 .f32) (x3 : Vec Ideal S50176x64 .f32)
    (g : FVec Ideal S1024x64 .f32) (hg : IsG x0 x3 49 g) :
    IsW x0 x2 x3 (truncf .bf16 (mulf g (broadcastTo S1024x64 x2 broadcasts_S1024x1_S1024x64)) bitsLt_bf16_f32) := by
  intro e f
  rw [truncf_apply, mulf_apply, hg e f,
    broadcastTo_apply x2 _ (ix2 e f) (ix2 e (0 : Fin 1)) (fun a => match a with | ⟨0, _⟩ => rfl | ⟨1, _⟩ => rfl)]

/-- With the targets and the weighted messages in hand, the scatter's sum is the point's contribution. -/
theorem scat_eq_contrib (x0 : Vec Ideal S1024x1 .i32) (x1 : Vec Ideal S1x1024 .i32) (x2 : Vec Ideal S1024x1 .f32) (x3 : Vec Ideal S50176x64 .f32)
    (W : FVec Ideal S1024x64 .bf16) (hW : IsW x0 x2 x3 W) (r : Fin 50176) (f : Fin 64) :
    scat x1 W r f = contrib x0 x1 x2 x3 r f := by
  unfold scat contrib
  exact Finset.sum_congr rfl fun e _ => by rw [hW e f]

set_option maxHeartbeats 4000000 in
/-- A LATER grid point: every element of the table is what the point before left plus the point's contribution. -/
theorem out_B (c : Dev nD) (i : grid0.Coords) (a1 : Memref sig .tc .vmem S1024x1 .i32) (h1 : a1.IsWhole) (a2 : Memref sig .tc .vmem S1x1024 .i32) (h2 : a2.IsWhole) (a3 : Memref sig .tc .vmem S1024x1 .f32) (h3 : a3.IsWhole) (a4 : Memref sig .tc .vmem S50176x64 .f32) (h4 : a4.IsWhole) (a5 : Memref sig .tc .vmem S50176x64 .f32) (h5 : a5.IsWhole) (hc : ¬cond0_0 i)
    (x0 : Vec Ideal S1024x1 .i32) (x1 : Vec Ideal S1x1024 .i32) (x2 : Vec Ideal S1024x1 .f32) (x3 xo4 : Vec Ideal S50176x64 .f32)
    (r : Fin 50176) (f : Fin 64) :
    out0_B_4 (F := Ideal) c i a1 h1 a2 h2 a3 h3 a4 h4 a5 h5 hc x0 x1 x2 x3 xo4 (ix2 r f) = xo4 (ix2 r f) + contrib x0 x1 x2 x3 r f := by
  unfold out0_B_4
  rw [View.read_writes_eq_canon _ _ _ (cover0_B_4 c i a1 h1 a2 h2 a3 h3 a4 h4 a5 h5 hc x0 x1 x2 x3 xo4)]
  -- the weighted messages
  have hW : IsW x0 x2 x3 (kernelRun0_B.sl.r_36 (F := Ideal) c a1 h1 a3 h3 a4 h4 x0 x2 x3) := by
    have hs := srcs_eq a1 h1 x0
    have hw := wts_eq a3 h3 x2
    obtain ⟨g, hWg, hg⟩ : ∃ g : FVec Ideal S1024x64 .f32,
        kernelRun0_B.sl.r_36 (F := Ideal) c a1 h1 a3 h3 a4 h4 x0 x2 x3
          = truncf .bf16 (mulf g (broadcastTo S1024x64 (k0_pay5 (F := Ideal) (a3.view.readAt (Elt Ideal) (Rect.unit (s := S1024x1) ![0, 0] S1024x1.size inb_S1024x1_S1024x1_0_0).toLoadRect (h3.unread x2))) broadcasts_S1024x1_S1024x64)) bitsLt_bf16_f32
        ∧ IsG (k0_pay3 (F := Ideal) (a1.view.readAt (Elt Ideal) (Rect.unit (s := S1024x1) ![0, 0] S1024x1.size inb_S1024x1_S1024x1_0_0).toLoadRect (h1.unread x0))) x3 49 g := by
      refine ⟨_, rfl, ?_⟩
      iterate 49 (refine isG_step _ x3 _ (by omega) _ (by rfl) _ (by rfl) _ a4 h4 _ ?_)
      exact isG_zero _ x3
    rw [hWg, hw]
    rw [hs] at hg
    exact isW_of x0 x2 x3 g hg
  have key : Below (kernelRun0_B.sl.r_1 (F := Ideal) c a2 h2 x1) (kernelRun0_B.sl.r_36 (F := Ideal) c a1 h1 a3 h3 a4 h4 x0 x2 x3)
      (fun r f => xo4 (ix2 r f)) 49 (kernelRun0_B (F := Ideal) c i a1 h1 a2 h2 a3 h3 a4 h4 a5 h5 hc x0 x1 x2 x3 xo4).1 := by
    unfold kernelRun0_B
    dsimp only
    iterate 49 (refine below_cons _ _ xo4 _ (by omega) _ (by rfl) _ (by rfl) _ a5 h5 _ ?_)
    exact below_nil _ _ _
  rw [key r f (by have := r.isLt; omega)]
  congr 1
  have ht : kernelRun0_B.sl.r_1 (F := Ideal) c a2 h2 x1 = x1 := tgts_eq a2 h2 x1
  rw [ht]
  exact scat_eq_contrib x0 x1 x2 x3 _ hW r f

set_option maxHeartbeats 4000000 in
/-- THE FIRST grid point: the table is zeroed, so every element is zero plus the point's contribution. -/
theorem out_A (c : Dev nD) (i : grid0.Coords) (a1 : Memref sig .tc .vmem S1024x1 .i32) (h1 : a1.IsWhole) (a2 : Memref sig .tc .vmem S1x1024 .i32) (h2 : a2.IsWhole) (a3 : Memref sig .tc .vmem S1024x1 .f32) (h3 : a3.IsWhole) (a4 : Memref sig .tc .vmem S50176x64 .f32) (h4 : a4.IsWhole) (a5 : Memref sig .tc .vmem S50176x64 .f32) (h5 : a5.IsWhole) (hc : cond0_0 i)
    (x0 : Vec Ideal S1024x1 .i32) (x1 : Vec Ideal S1x1024 .i32) (x2 : Vec Ideal S1024x1 .f32) (x3 : Vec Ideal S50176x64 .f32)
    (r : Fin 50176) (f : Fin 64) :
    out0_A_4 (F := Ideal) c i a1 h1 a2 h2 a3 h3 a4 h4 a5 h5 hc x0 x1 x2 x3 (ix2 r f) = 0 + contrib x0 x1 x2 x3 r f := by
  unfold out0_A_4
  rw [View.read_writes_eq_canon _ _ _ (cover0_A_4 c i a1 h1 a2 h2 a3 h3 a4 h4 a5 h5 hc x0 x1 x2 x3)]
  -- the weighted messages
  have hW : IsW x0 x2 x3 (kernelRun0_A.sl.r_36 (F := Ideal) c a1 h1 a3 h3 a4 h4 x0 x2 x3) := by
    have hs := srcs_eq a1 h1 x0
    have hw := wts_eq a3 h3 x2
    obtain ⟨g, hWg, hg⟩ : ∃ g : FVec Ideal S1024x64 .f32,
        kernelRun0_A.sl.r_36 (F := Ideal) c a1 h1 a3 h3 a4 h4 x0 x2 x3
          = truncf .bf16 (mulf g (broadcastTo S1024x64 (k0_pay5 (F := Ideal) (a3.view.readAt (Elt Ideal) (Rect.unit (s := S1024x1) ![0, 0] S1024x1.size inb_S1024x1_S1024x1_0_0).toLoadRect (h3.unread x2))) broadcasts_S1024x1_S1024x64)) bitsLt_bf16_f32
        ∧ IsG (k0_pay3 (F := Ideal) (a1.view.readAt (Elt Ideal) (Rect.unit (s := S1024x1) ![0, 0] S1024x1.size inb_S1024x1_S1024x1_0_0).toLoadRect (h1.unread x0))) x3 49 g := by
      refine ⟨_, rfl, ?_⟩
      iterate 49 (refine isG_step _ x3 _ (by omega) _ (by rfl) _ (by rfl) _ a4 h4 _ ?_)
      exact isG_zero _ x3
    rw [hWg, hw]
    rw [hs] at hg
    exact isW_of x0 x2 x3 g hg
  have key : Upto (kernelRun0_A.sl.r_1 (F := Ideal) c a2 h2 x1) (kernelRun0_A.sl.r_36 (F := Ideal) c a1 h1 a3 h3 a4 h4 x0 x2 x3)
      49 (kernelRun0_A (F := Ideal) c i a1 h1 a2 h2 a3 h3 a4 h4 a5 h5 hc x0 x1 x2 x3).1 := by
    unfold kernelRun0_A
    dsimp only
    iterate 49 (refine upto_cons _ _ _ (by omega) _ (by rfl) _ (by rfl) _ a5.view _ ?_)
    exact upto_zero _ _ _
  rw [key r f, if_pos (by have := r.isLt; omega)]
  congr 1
  have ht : kernelRun0_A.sl.r_1 (F := Ideal) c a2 h2 x1 = x1 := tgts_eq a2 h2 x1
  rw [ht]
  exact scat_eq_contrib x0 x1 x2 x3 _ hW r f

end Cert.KernelIdeal.Body

end
-- ==== Proof.Accum.lean ====
/-
  The output table over the grid. The first point zeroes it and adds its contribution, every later point adds its own to
  what the point before left: after point n it is the sum of the contributions of points 0 to n. The table is written
  back to its array once, after the last point, whole: the array ends at the sum over all 1563 points.
-/
import proofs.«403076_j88974542503970_2_alg».proof.Proof.BodyRun

set_option maxRecDepth 65536

noncomputable section

open scoped BigOperators

namespace Cert.KernelIdeal.Body

open Cert.KernelIdeal Cert.KernelIdeal.Gen Idealize.ShloMosaic Idealize.ShloMosaic.ValueIdx Idealize.ShloMosaic.TcCoe
open Idealize.SL.Sem
open Idealize.ShloMosaic.Pipeline (Dat)

variable (m : (ℓ : Loc nD τ sig) → Buf (Elt Ideal) ℓ)

/-- Grid point k's contribution to element (r, f), from its four blocks; zero past the grid. -/
def pc (c : Dev nD) (r : Fin 50176) (f : Fin 64) (k : ℕ) : EReal :=
  if hk : k < cfg0.N then contrib (iblk m c 0 ⟨k, hk⟩) (iblk m c 1 ⟨k, hk⟩) (iblk m c 2 ⟨k, hk⟩) (iblk m c 3 ⟨k, hk⟩) r f else 0

/-- After point n the table's element (r, f) is the sum of the contributions of points 0 … n. -/
theorem outsAt_eq (c : Dev nD) (r : Fin 50176) (f : Fin 64) :
    ∀ (n : ℕ) (h : n < cfg0.N), outsAt0 m c n h (ix2 r f) = ∑ k ∈ Finset.range (n + 1), pc m c r f k
  | 0, h => by
    rw [congrFun (outsAt0_A m c ⟨0, h⟩ rfl) (ix2 r f)]
    rw [out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) _ (iblk m c 0 ⟨0, h⟩) (iblk m c 1 ⟨0, h⟩) (iblk m c 2 ⟨0, h⟩) (iblk m c 3 ⟨0, h⟩) r f]
    rw [Finset.sum_range_one, zero_add, pc, dif_pos h]
  | n + 1, h => by
    have hN : cfg0.N = 1563 := N_0
    have hB : ¬(⟨n + 1, h⟩ : Fin cfg0.N).val % 1563 = 0 := by dsimp only; omega
    rw [congrFun (outsAt0_B m c ⟨n + 1, h⟩ hB) (ix2 r f)]
    rw [out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) (ms0_4 ⟨n + 1, h⟩) (hs0_4 ⟨n + 1, h⟩) _ (iblk m c 0 ⟨n + 1, h⟩) (iblk m c 1 ⟨n + 1, h⟩) (iblk m c 2 ⟨n + 1, h⟩) (iblk m c 3 ⟨n + 1, h⟩) _ r f]
    rw [Finset.sum_range_succ _ (n + 1)]
    congr 1
    · exact outsAt_eq c r f n _
    · rw [pc, dif_pos h]

/-- The last grid point. -/
abbrev tLast : Fin cfg0.N := ⟨1562, by rw [show cfg0.N = 1563 from N_0]; decide⟩

/-- The output window's block never moves: its index is (0, 0) at every point. -/
theorem idx4_zero : ∀ (t : Fin cfg0.N) (a : Fin 2), win0_4.index t a = 0 :=
  (by decide +kernel : ∀ (t : Fin grid0.N) (a : Fin 2), win0_4.index t a = 0)

/-- The output array after the run, element by element: the table is written back once, after the last point, whole, so
    the array's element (r, f) is the table's after point 1562 — the sum of all the points' contributions. -/
theorem final_apply (c : Dev nD) (r : Fin 50176) (f : Fin 64) :
    (dats m 0 c).arrAt 4 cfg0.N (ix2 r f) = ∑ k ∈ Finset.range 1563, pc m c r f k := by
  have hN : cfg0.N = 1563 := N_0
  have hlast : ∀ t : Fin cfg0.N, (cfg0.win 4).flush t = true → t = tLast := fun t hf =>
    Fin.ext (by have := (flush0_4 t).mp hf; have := t.isLt; show t.val = 1562; omega)
  have e : ((cfg0.win 4).blk tLast).view.emb (ix2 r f) = ix2 r f := by
    funext a; apply Fin.ext
    match a with
    | ⟨0, _⟩ => show win0_4.index tLast 0 * 50176 + 1 * r.val = r.val; rw [idx4_zero tLast 0]; omega
    | ⟨1, _⟩ => show win0_4.index tLast 1 * 64 + 1 * f.val = f.val; rw [idx4_zero tLast 1]; omega
  have h := Dat.arrAt_emb_eq_flushed (dat := dats m 0 c) 4
    (fun t t' hf hf' hne => absurd ((hlast t hf).trans (hlast t' hf').symm) hne) tLast ((flush0_4 tLast).mpr rfl) (ix2 r f)
  rw [e] at h
  rw [h]
  show (cfg0.win 4).cut (grid0.coords tLast) ((dats m 0 c).after 4 tLast) (ix2 r f) = _
  rw [after0_4]
  exact outsAt_eq m c r f 1562 tLast.isLt

end Cert.KernelIdeal.Body

end
-- ==== Proof.KernelHost.lean ====
/-
  What the kernel's host code hands the pallas_call, read at an index. Before the region @main pads the node table
  with 176 zero rows, takes the two rows of the edge list, pads each with 512 zero words and lays the sources out as a
  column and the targets as a row, and pads the weights with 512 zeros and lays them out as a column. Grid point t's
  blocks are entries [1024 t, 1024 t + 1024) of the padded sources, targets and weights, and the whole padded node
  table. So each block entry is an entry of the padded lists of Spec.lean (srcP, tgtP, wP, xP). After the region @main
  keeps the first 50000 rows of the output array.
-/
import proofs.«403076_j88974542503970_2_alg».proof.Proof.Gen.KernelIdeal.Frame
import proofs.«403076_j88974542503970_2_alg».proof.Proof.Spec
import Idealize.ShloMosaic.Lib.Pipeline.Value
import Idealize.ShloMosaic.Lib.ValueIdx
import Idealize.ShloMosaic.Lib.StableHlo.Run
import Idealize.ShloMosaic.Lib.KernelVsHost

set_option maxRecDepth 16384

noncomputable section

namespace Cert.KernelIdeal.HostSide

open Cert.KernelIdeal Cert.KernelIdeal.Gen Cert.SegSum Idealize.ShloMosaic Idealize.ShloMosaic.ValueIdx Idealize.ShloMosaic.TcCoe Idealize.SL.Sem Idealize.ShloMosaic.StableHlo

variable (m : (ℓ : Loc nD τ sig) → Buf (Elt Ideal) ℓ)

/-- Core `c`'s node features as launched. -/
abbrev xA (c : Dev nD) : XArr := m ((c : Thread nD τ).loc main_arg0)
/-- Its edge list as launched. -/
abbrev eA (c : Dev nD) : EArr := m ((c : Thread nD τ).loc main_arg1)
/-- Its edge weights as launched. -/
abbrev wA (c : Dev nD) : WArr := m ((c : Thread nD τ).loc main_arg2)

/-! ## A pad of trailing entries, read at an index -/

section Pads
variable {α : Type}

/-- A vector of 1600000 entries padded behind with 512 copies of `v`: inside the operand it reads the operand, behind
    it the padding value. -/
theorem padVec_apply (x : S1600000.Idx → α) (v : S_.Idx → α) (e' : Fin 1600512) :
    pad (s := S1600000) S1600512 ![0] ![512] ![0] x v pads_S1600000_S1600512_05120 h_S_ (ix1 e')
      = if h : e'.val < 1600000 then x (ix1 ⟨e'.val, h⟩) else v ix0 := by
  by_cases h : e'.val < 1600000
  · rw [dif_pos h]
    exact pad_apply_of_inside ![0] ![512] ![0] x v pads_S1600000_S1600512_05120 h_S_ (ix1 e') (ix1 ⟨e'.val, h⟩)
      (fun a => match a with | ⟨0, _⟩ => by show e'.val = 0 + e'.val * (0 + 1); omega)
  · rw [dif_neg h]
    refine (pad_apply_of_not_inside ![0] ![512] ![0] x v pads_S1600000_S1600512_05120 h_S_ (ix1 e') (0 : Fin 1) ?_).trans
      (congrArg v (funext fun a => a.elim0))
    show ¬(0 ≤ e'.val ∧ (e'.val - 0) % 1 = 0 ∧ (e'.val - 0) / 1 < 1600000)
    omega

/-- A table of 50000 rows padded below with 176 rows of `v`. -/
theorem padRows_apply (x : S50000x64.Idx → α) (v : S_.Idx → α) (r : Fin 50176) (f : Fin 64) :
    pad (s := S50000x64) S50176x64 ![0, 0] ![176, 0] ![0, 0] x v pads_S50000x64_S50176x64_01760_000 h_S_ (ix2 r f)
      = if h : r.val < 50000 then x (ix2 ⟨r.val, h⟩ f) else v ix0 := by
  by_cases h : r.val < 50000
  · rw [dif_pos h]
    exact pad_apply_of_inside ![0, 0] ![176, 0] ![0, 0] x v pads_S50000x64_S50176x64_01760_000 h_S_ (ix2 r f) (ix2 ⟨r.val, h⟩ f)
      (fun a => match a with
        | ⟨0, _⟩ => by show r.val = 0 + r.val * (0 + 1); omega
        | ⟨1, _⟩ => by show f.val = 0 + f.val * (0 + 1); omega)
  · rw [dif_neg h]
    refine (pad_apply_of_not_inside ![0, 0] ![176, 0] ![0, 0] x v pads_S50000x64_S50176x64_01760_000 h_S_ (ix2 r f) (0 : Fin 2) ?_).trans
      (congrArg v (funext fun a => a.elim0))
    show ¬(0 ≤ r.val ∧ (r.val - 0) % 1 = 0 ∧ (r.val - 0) / 1 < 50000)
    omega

end Pads

/-! ## The window arrays as the host operations' terms of the arguments -/

theorem V8_eq (c : Dev nD) : V m c main_v8 =
    (shapeCast S1600512x1 (pad (s := S1600000) S1600512 ![0] ![512] ![0]
      (shapeCast S1600000 (extractStridedSlice S1x1600000 ![0, 0] (eA m c) slices_S2x1600000_S1x1600000_0_0) shapeCasts_S1x1600000_S1600000)
      (constantI S_ 32 0#32) pads_S1600000_S1600512_05120 h_S_) shapeCasts_S1600512_S1600512x1 : S1600512x1.Idx → BitVec 32) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  simp only [TRef.ofBuf, TRef.toBuf, cast_eq]
  rfl

theorem V9_eq (c : Dev nD) : V m c main_v9 =
    (shapeCast S1x1600512 (pad (s := S1600000) S1600512 ![0] ![512] ![0]
      (shapeCast S1600000 (extractStridedSlice S1x1600000 ![1, 0] (eA m c) slices_S2x1600000_S1x1600000_1_0) shapeCasts_S1x1600000_S1600000)
      (constantI S_ 32 0#32) pads_S1600000_S1600512_05120 h_S_) shapeCasts_S1600512_S1x1600512 : S1x1600512.Idx → BitVec 32) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  simp only [TRef.ofBuf, TRef.toBuf, cast_eq]
  rfl

theorem V10_eq (c : Dev nD) : V m c main_v10 =
    (shapeCast S1600512x1 (pad (s := S1600000) S1600512 ![0] ![512] ![0] (wA m c)
      (constant (F := Ideal) S_ .f32 0x00000000#32) pads_S1600000_S1600512_05120 h_S_) shapeCasts_S1600512_S1600512x1 : S1600512x1.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  simp only [TRef.ofBuf, TRef.toBuf, cast_eq]
  rfl

theorem V0_eq (c : Dev nD) : V m c main_v0 =
    (pad (s := S50000x64) S50176x64 ![0, 0] ![176, 0] ![0, 0] (xA m c)
      (sitofp (F := Ideal) .f32 (constantI S_ 32 0#32)) pads_S50000x64_S50176x64_01760_000 h_S_ : S50176x64.Idx → EReal) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  simp only [TRef.ofBuf, TRef.toBuf, cast_eq]

/-! ## The window arrays read at an index -/

/-- The sources' window array: entry `e'` is the padded source list's. -/
theorem srcArr_apply (c : Dev nD) (e' : Fin 1600512) :
    (V m c main_v8 : S1600512x1.Idx → BitVec 32) (ix2 e' (0 : Fin 1)) = srcP (eA m c) e'.val := by
  refine (congrFun (V8_eq m c) _).trans ?_
  refine (shapeCast_apply _ shapeCasts_S1600512_S1600512x1 (ix2 e' (0 : Fin 1)) (ix1 e') ?_).trans ?_
  · rw [Shape.rowMajor_val_two, Shape.rowMajor_val_one]; show e'.val = e'.val * 1 + 0; omega
  rw [padVec_apply]
  unfold srcP
  by_cases h : e'.val < 1600000
  · rw [dif_pos h, dif_pos h]
    refine (shapeCast_apply _ shapeCasts_S1x1600000_S1600000 (ix1 ⟨e'.val, h⟩) (ix2 (0 : Fin 1) ⟨e'.val, h⟩) ?_).trans ?_
    · rw [Shape.rowMajor_val_two, Shape.rowMajor_val_one]; show 0 * 1600000 + e'.val = e'.val; omega
    exact extractStridedSlice_apply ![0, 0] _ slices_S2x1600000_S1x1600000_0_0 (ix2 (0 : Fin 1) ⟨e'.val, h⟩)
      (ix2 (0 : Fin 2) ⟨e'.val, h⟩)
      (fun a => match a with
        | ⟨0, _⟩ => by show 0 = 0 + 0; omega
        | ⟨1, _⟩ => by show e'.val = 0 + e'.val; omega)
  · rw [dif_neg h, dif_neg h]; rfl

/-- The targets' window array: entry `e'` is the padded target list's. -/
theorem tgtArr_apply (c : Dev nD) (e' : Fin 1600512) :
    (V m c main_v9 : S1x1600512.Idx → BitVec 32) (ix2 (0 : Fin 1) e') = tgtP (eA m c) e'.val := by
  refine (congrFun (V9_eq m c) _).trans ?_
  refine (shapeCast_apply _ shapeCasts_S1600512_S1x1600512 (ix2 (0 : Fin 1) e') (ix1 e') ?_).trans ?_
  · rw [Shape.rowMajor_val_two, Shape.rowMajor_val_one]; show e'.val = 0 * 1600512 + e'.val; omega
  rw [padVec_apply]
  unfold tgtP
  by_cases h : e'.val < 1600000
  · rw [dif_pos h, dif_pos h]
    refine (shapeCast_apply _ shapeCasts_S1x1600000_S1600000 (ix1 ⟨e'.val, h⟩) (ix2 (0 : Fin 1) ⟨e'.val, h⟩) ?_).trans ?_
    · rw [Shape.rowMajor_val_two, Shape.rowMajor_val_one]; show 0 * 1600000 + e'.val = e'.val; omega
    exact extractStridedSlice_apply ![1, 0] _ slices_S2x1600000_S1x1600000_1_0 (ix2 (0 : Fin 1) ⟨e'.val, h⟩)
      (ix2 (1 : Fin 2) ⟨e'.val, h⟩)
      (fun a => match a with
        | ⟨0, _⟩ => by show 1 = 1 + 0; omega
        | ⟨1, _⟩ => by show e'.val = 0 + e'.val; omega)
  · rw [dif_neg h, dif_neg h]; rfl

/-- The weights' window array: entry `e'` is the padded weight's; the padding value is the real zero. -/
theorem wArr_apply (c : Dev nD) (e' : Fin 1600512) :
    (V m c main_v10 : S1600512x1.Idx → EReal) (ix2 e' (0 : Fin 1)) = wP (wA m c) e'.val := by
  refine (congrFun (V10_eq m c) _).trans ?_
  refine (shapeCast_apply _ shapeCasts_S1600512_S1600512x1 (ix2 e' (0 : Fin 1)) (ix1 e') ?_).trans ?_
  · rw [Shape.rowMajor_val_two, Shape.rowMajor_val_one]; show e'.val = e'.val * 1 + 0; omega
  rw [padVec_apply]
  unfold wP
  by_cases h : e'.val < 1600000
  · rw [dif_pos h, dif_pos h]
  · rw [dif_neg h, dif_neg h]
    show Ideal.ofBits .f32 0x00000000#32 = 0
    exact Ideal.ofBits_zero_f32

/-- The node table's window array: row `r` is the padded table's; the padding value, the integer zero converted, is the
    real zero. -/
theorem xArr_apply (c : Dev nD) (r : Fin 50176) (f : Fin 64) :
    (V m c main_v0 : S50176x64.Idx → EReal) (ix2 r f) = xP (xA m c) r.val f := by
  refine (congrFun (V0_eq m c) _).trans ?_
  rw [padRows_apply]
  unfold xP
  by_cases h : r.val < 50000
  · rw [dif_pos h, dif_pos h]
  · rw [dif_neg h, dif_neg h]
    show (((0#32 : BitVec 32).toInt : ℝ) : EReal) = 0
    simp

/-! ## The blocks' places in their arrays -/

/-- Point `t`'s block of the sources is block `t` along the edges. -/
theorem idx0 : ∀ t : Fin cfg0.N, win0_0.index t 0 = t.val ∧ win0_0.index t 1 = 0 :=
  (by decide +kernel : ∀ t : Fin grid0.N, win0_0.index t 0 = t.val ∧ win0_0.index t 1 = 0)
/-- Point `t`'s block of the targets is block `t` along the edges. -/
theorem idx1 : ∀ t : Fin cfg0.N, win0_1.index t 0 = 0 ∧ win0_1.index t 1 = t.val :=
  (by decide +kernel : ∀ t : Fin grid0.N, win0_1.index t 0 = 0 ∧ win0_1.index t 1 = t.val)
/-- Point `t`'s block of the weights is block `t` along the edges. -/
theorem idx2 : ∀ t : Fin cfg0.N, win0_2.index t 0 = t.val ∧ win0_2.index t 1 = 0 :=
  (by decide +kernel : ∀ t : Fin grid0.N, win0_2.index t 0 = t.val ∧ win0_2.index t 1 = 0)
/-- Every point's block of the node table is the whole table. -/
theorem idx3 : ∀ t : Fin cfg0.N, win0_3.index t 0 = 0 ∧ win0_3.index t 1 = 0 :=
  (by decide +kernel : ∀ t : Fin grid0.N, win0_3.index t 0 = 0 ∧ win0_3.index t 1 = 0)

/-! ## What the kernel's blocks hold -/

theorem srcBlk_apply (c : Dev nD) (t : Fin cfg0.N) (k : Fin 1024) :
    (iblk m c 0 t : Vec Ideal S1024x1 .i32) (ix2 k (0 : Fin 1)) = srcP (eA m c) (1024 * t.val + k.val) := by
  have hN : t.val < 1563 := lt_of_lt_of_eq t.isLt (show cfg0.N = 1563 from N_0)
  have hi := idx0 t
  have hlt : 1024 * t.val + k.val < 1600512 := by have := k.isLt; omega
  refine Eq.trans ?_ (srcArr_apply m c ⟨1024 * t.val + k.val, hlt⟩)
  unfold iblk
  rw [View.read_apply]
  show V m c main_v8 _ = V m c main_v8 _
  congr 1
  funext a
  apply Fin.ext
  match a with
  | ⟨0, _⟩ => show win0_0.index t 0 * 1024 + 1 * k.val = 1024 * t.val + k.val; rw [hi.1]; omega
  | ⟨1, _⟩ => show win0_0.index t 1 * 1 + 1 * 0 = 0; rw [hi.2]

theorem tgtBlk_apply (c : Dev nD) (t : Fin cfg0.N) (k : Fin 1024) :
    (iblk m c 1 t : Vec Ideal S1x1024 .i32) (ix2 (0 : Fin 1) k) = tgtP (eA m c) (1024 * t.val + k.val) := by
  have hN : t.val < 1563 := lt_of_lt_of_eq t.isLt (show cfg0.N = 1563 from N_0)
  have hi := idx1 t
  have hlt : 1024 * t.val + k.val < 1600512 := by have := k.isLt; omega
  refine Eq.trans ?_ (tgtArr_apply m c ⟨1024 * t.val + k.val, hlt⟩)
  unfold iblk
  rw [View.read_apply]
  show V m c main_v9 _ = V m c main_v9 _
  congr 1
  funext a
  apply Fin.ext
  match a with
  | ⟨0, _⟩ => show win0_1.index t 0 * 1 + 1 * 0 = 0; rw [hi.1]
  | ⟨1, _⟩ => show win0_1.index t 1 * 1024 + 1 * k.val = 1024 * t.val + k.val; rw [hi.2]; omega

theorem wBlk_apply (c : Dev nD) (t : Fin cfg0.N) (k : Fin 1024) :
    (iblk m c 2 t : Vec Ideal S1024x1 .f32) (ix2 k (0 : Fin 1)) = wP (wA m c) (1024 * t.val + k.val) := by
  have hN : t.val < 1563 := lt_of_lt_of_eq t.isLt (show cfg0.N = 1563 from N_0)
  have hi := idx2 t
  have hlt : 1024 * t.val + k.val < 1600512 := by have := k.isLt; omega
  refine Eq.trans ?_ (wArr_apply m c ⟨1024 * t.val + k.val, hlt⟩)
  unfold iblk
  rw [View.read_apply]
  show V m c main_v10 _ = V m c main_v10 _
  congr 1
  funext a
  apply Fin.ext
  match a with
  | ⟨0, _⟩ => show win0_2.index t 0 * 1024 + 1 * k.val = 1024 * t.val + k.val; rw [hi.1]; omega
  | ⟨1, _⟩ => show win0_2.index t 1 * 1 + 1 * 0 = 0; rw [hi.2]

theorem xBlk_apply (c : Dev nD) (t : Fin cfg0.N) (r : Fin 50176) (f : Fin 64) :
    (iblk m c 3 t : Vec Ideal S50176x64 .f32) (ix2 r f) = xP (xA m c) r.val f := by
  have hi := idx3 t
  refine Eq.trans ?_ (xArr_apply m c r f)
  unfold iblk
  rw [View.read_apply]
  show V m c main_v0 _ = V m c main_v0 _
  congr 1
  funext a
  apply Fin.ext
  match a with
  | ⟨0, _⟩ => show win0_3.index t 0 * 50176 + 1 * r.val = r.val; rw [hi.1]; omega
  | ⟨1, _⟩ => show win0_3.index t 1 * 64 + 1 * f.val = f.val; rw [hi.2]; omega

/-! ## The result: the rows of the output array the host keeps -/

/-- The output array as the region leaves it, at its literal type. -/
abbrev outA (c : Dev nD) : S50176x64.Idx → EReal := (dats m 0 c).arrAt 4 cfg0.N
/-- The program's result, at its literal type. -/
abbrev resA (c : Dev nD) : S50000x64.Idx → EReal := Pipeline.afterTail₀ cfgs (dats m) 0 (V0 m) [hostOps1] c main_v12

/-- The program's result is the first 50000 rows of the output array as the region leaves it. -/
theorem tail_eq (c : Dev nD) :
    resA m c = extractStridedSlice S50000x64 ![0, 0] (outA m c) slices_S50176x64_S50000x64_0_0 := by
  unfold resA outA Pipeline.afterTail₀
  show StableHlo.after hostOps1 _ (Proc.devRef .tc main_v12) = _
  after_results
  rw [show Pipeline.withArrays (cfgs 0).spec c (V0 m c) (fun w => (dats m 0 c).arrAt w (cfgs 0).N) (Proc.devRef .tc main_v11)
      = (dats m 0 c).arrAt 4 cfg0.N from Pipeline.withArrays_arr spec0 launch0.win.arr_inj c _ _ 4]

/-- The first 50000 rows of a table of 50176 rows, read at an index. -/
theorem sliceRows_apply {α : Type} (A : S50176x64.Idx → α) (i : Fin 50000) (f : Fin 64) :
    extractStridedSlice S50000x64 ![0, 0] A slices_S50176x64_S50000x64_0_0 (ix2 i f)
      = A (ix2 (⟨i.val, Nat.lt_of_lt_of_le i.isLt (by omega)⟩ : Fin 50176) f) :=
  extractStridedSlice_apply ![0, 0] A slices_S50176x64_S50000x64_0_0 (ix2 i f)
    (ix2 (⟨i.val, Nat.lt_of_lt_of_le i.isLt (by omega)⟩ : Fin 50176) f)
    (fun a => match a with
      | ⟨0, _⟩ => by show i.val = 0 + i.val; omega
      | ⟨1, _⟩ => by show f.val = 0 + f.val; omega)

/-- Row `i` of the result is row `i` of the output array. -/
theorem tail_apply (c : Dev nD) (i : Fin 50000) (f : Fin 64) :
    resA m c (ix2 i f) = outA m c (ix2 (⟨i.val, Nat.lt_of_lt_of_le i.isLt (by omega)⟩ : Fin 50176) f) :=
  (congrFun (tail_eq m c) (ix2 i f)).trans (sliceRows_apply (outA m c) i f)

end Cert.KernelIdeal.HostSide

end
-- ==== Proof.Bridge.lean ====
/-
  The kernel's accumulated sum is the reference's sum. The kernel adds one term for each of 1563 · 1024 = 1600512 padded
  edges, grid point by grid point; a padded edge past the 1600000 real ones has weight zero and so contributes nothing, and
  a real edge's term is the reference's term, because under `SrcInRange` the gathered row is a row of the node table and
  the reference's clamp of the source is the identity.
-/
import proofs.«403076_j88974542503970_2_alg».proof.Proof.Spec
import Mathlib.Algebra.BigOperators.Fin
import Mathlib.Data.EReal.Basic

noncomputable section

open scoped BigOperators

namespace Cert.SegSum

open Idealize.ShloMosaic Idealize.ShloMosaic.ValueIdx

/-- Summing block by block is summing along the line: T blocks of B consecutive numbers each are the numbers below T · B,
    block t holding B · t, …, B · t + B - 1. -/
theorem sum_blocks_eq_sum_range {M : Type*} [AddCommMonoid M] (B : ℕ) (g : ℕ → M) (T : ℕ) :
    (∑ t : Fin T, ∑ k : Fin B, g (B * t.val + k.val)) = ∑ e ∈ Finset.range (T * B), g e := by
  induction T with
  | zero => simp
  | succ T ih =>
    rw [Fin.sum_univ_castSucc, Nat.succ_mul, Finset.sum_range_add]
    simp only [Fin.val_castSucc, Fin.val_last]
    rw [ih, Fin.sum_univ_eq_sum_range (fun k => g (B * T + k)) B, Nat.mul_comm B T]

/-- A padded edge past the real ones contributes nothing: its weight is zero. -/
theorem edgeTerm_pad (x : XArr) (ei : EArr) (w : WArr) (r : ℕ) (f : Fin 64) (e' : ℕ) (he : 1600000 ≤ e') :
    edgeTerm x ei w e' r f = 0 := by
  have hw : wP w e' = 0 := dif_neg (by omega)
  unfold edgeTerm
  rw [hw, mul_zero, ite_self]

/-- A real edge's term is the reference's term: the padded arrays agree with the arrays on a real edge, the gathered row
    is a row of the node table because the source is a node, and clamping a node to the last node changes nothing. -/
theorem edgeTerm_real (x : XArr) (ei : EArr) (w : WArr) (h : SrcInRange ei) (r : Fin 50000) (f : Fin 64)
    (e : Fin 1600000) :
    edgeTerm x ei w e.val r.val f =
      if (tgt ei e).toNat = r.val then
        x (ix2 ⟨min (src ei e).toNat 49999, by omega⟩ f) * w (ix1 e) else 0 := by
  have hs : (src ei e).toNat < 50000 := h e
  have hmin : min (src ei e).toNat 49999 = (src ei e).toNat := by omega
  have hsrc : srcP ei e.val = src ei e := dif_pos e.isLt
  have htgt : tgtP ei e.val = tgt ei e := dif_pos e.isLt
  have hw : wP w e.val = w (ix1 e) := dif_pos e.isLt
  have hx : xP x (src ei e).toNat f = x (ix2 ⟨(src ei e).toNat, hs⟩ f) := dif_pos hs
  have hi : (⟨(src ei e).toNat, hs⟩ : Fin 50000) = ⟨min (src ei e).toNat 49999, by omega⟩ := Fin.ext hmin.symm
  unfold edgeTerm
  rw [hsrc, htgt, hw, hx, hi]

theorem kernelSum_eq_G (x : XArr) (ei : EArr) (w : WArr) (h : SrcInRange ei) (r : Fin 50000) (f : Fin 64) :
    kernelSum x ei w r.val f = G x ei w (ix2 r f) := by
  have hN : (1563 * 1024 : ℕ) = 1600000 + 512 := by norm_num
  unfold kernelSum
  rw [sum_blocks_eq_sum_range 1024 (fun e' => edgeTerm x ei w e' r.val f) 1563, hN, Finset.sum_range_add]
  have hpad : (∑ j ∈ Finset.range 512, edgeTerm x ei w (1600000 + j) r.val f) = 0 :=
    Finset.sum_eq_zero (fun j _ => edgeTerm_pad x ei w r.val f (1600000 + j) (by omega))
  rw [hpad, add_zero, Finset.sum_range (fun e' => edgeTerm x ei w e' r.val f)]
  unfold G
  exact Finset.sum_congr rfl (fun e _ => edgeTerm_real x ei w h r f e)

end Cert.SegSum

end
-- ==== Proof.KernelValue.lean ====
/-
  The kernel's result as ONE function of its arguments. Each grid point's contribution is, by what the host code hands
  the pallas_call, the sum of its 1024 padded edges' terms; the output array ends at the sum over all the points, which
  under the sources' range is the segment sum G of the arguments on the first 50000 rows — the rows @main keeps.
-/
import proofs.«403076_j88974542503970_2_alg».proof.Proof.Accum
import proofs.«403076_j88974542503970_2_alg».proof.Proof.KernelHost
import proofs.«403076_j88974542503970_2_alg».proof.Proof.Bridge

set_option maxRecDepth 65536

noncomputable section

open scoped BigOperators

namespace Cert.KernelIdeal.Result

open Cert.KernelIdeal Cert.KernelIdeal.Gen Cert.KernelIdeal.Body Cert.KernelIdeal.HostSide Cert.SegSum
open Idealize.ShloMosaic Idealize.ShloMosaic.ValueIdx Idealize.ShloMosaic.TcCoe Idealize.SL.Sem

variable (m : (ℓ : Loc nD τ sig) → Buf (Elt Ideal) ℓ) (ρ : Dev nD → PrngReg)

/-- A word equals the word of a small number exactly when its value is that number. -/
theorem ofNat_eq_iff (r : ℕ) (hr : r < 2 ^ 32) (τ' : BitVec 32) : BitVec.ofNat 32 r = τ' ↔ τ'.toNat = r := by
  constructor
  · intro h; rw [← h, BitVec.toNat_ofNat]; omega
  · intro h; apply BitVec.eq_of_toNat_eq; rw [BitVec.toNat_ofNat, h]; omega

/-- The gathered row over the whole padded table is the padded table's row at the source. -/
theorem gval_eq_xP (c : Dev nD) (t : Fin cfg0.N) (σ : BitVec 32) (f : Fin 64) :
    gval (iblk m c 3 t) 49 σ f = xP (xA m c) σ.toNat f := by
  unfold gval
  by_cases h : σ.toNat < 50176
  · rw [dif_pos ⟨by omega, h⟩]
    exact xBlk_apply m c t ⟨σ.toNat, h⟩ f
  · rw [dif_neg (fun hc => h hc.2)]
    unfold xP
    rw [dif_neg (by omega)]

/-- Grid point k's contribution is the sum of its 1024 padded edges' terms. -/
theorem pc_eq (c : Dev nD) (r : Fin 50176) (f : Fin 64) (k : ℕ) (hk : k < 1563) :
    pc m c r f k = ∑ j : Fin 1024, edgeTerm (xA m c) (eA m c) (wA m c) (1024 * k + j.val) r.val f := by
  have hk' : k < cfg0.N := by rw [show cfg0.N = 1563 from N_0]; exact hk
  unfold pc
  rw [dif_pos hk']
  unfold contrib
  refine Finset.sum_congr rfl fun j _ => ?_
  rw [tgtBlk_apply m c ⟨k, hk'⟩ j, srcBlk_apply m c ⟨k, hk'⟩ j, wBlk_apply m c ⟨k, hk'⟩ j, gval_eq_xP m c ⟨k, hk'⟩]
  unfold edgeTerm
  by_cases h : (tgtP (eA m c) (1024 * k + j.val)).toNat = r.val
  · rw [if_pos h, if_pos ((ofNat_eq_iff r.val (by have := r.isLt; omega) _).mpr h), one_mul]
  · rw [if_neg h, if_neg (fun hc => h ((ofNat_eq_iff r.val (by have := r.isLt; omega) _).mp hc)), zero_mul]

/-- The output array's element (r, f) after the run: the kernel's sum over the padded edges. -/
theorem out_apply (c : Dev nD) (r : Fin 50176) (f : Fin 64) :
    outA m c (ix2 r f) = kernelSum (xA m c) (eA m c) (wA m c) r.val f := by
  have h : outA m c (ix2 r f) = ∑ k ∈ Finset.range 1563, pc m c r f k := final_apply m c r f
  rw [h, Finset.sum_range]
  unfold kernelSum
  exact Finset.sum_congr rfl fun t _ => pc_eq m c r f t.val t.isLt

/-- THE RESULT: under the sources' range, what @main returns is the segment sum of its arguments. -/
theorem res_eq (c : Dev nD) (hs : SrcInRange (eA m c)) : resA m c = G (xA m c) (eA m c) (wA m c) := by
  funext y
  obtain ⟨i, f, rfl⟩ : ∃ (i : Fin 50000) (f : Fin 64), y = ix2 i f := ⟨y 0, y 1, eq_ix2 y⟩
  rw [tail_apply m c i f, out_apply m c ⟨i.val, by omega⟩ f]
  exact kernelSum_eq_G (xA m c) (eA m c) (wA m c) hs i f

/-- The run, read: on every core, every weakly fair execution of @main terminates with the result at the segment sum of
    the arguments and the arguments unchanged. -/
theorem run (hs : ∀ c : Dev nD, SrcInRange (eA m c)) :
    θ_run defs (onTc (τ := τ) (main (F := Ideal))) ⟨m, fun _ => 0, ρ⟩ (fun r => ∀ c : Dev nD,
      r.2.mem ((c.tc : Thread nD τ).loc main_v12) = G (xA m c) (eA m c) (wA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v12 (Pipeline.mem_restRefs_of main_v12 (by decide) (by decide))).trans (res_eq m c (hs c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  Message passing with sum aggregation on 50000 nodes and 1600000 edges: a kernel that gathers each edge's source row and
  scatters the weighted rows to the targets by one-hot matrix products, block by block over a grid of 1563 points of
  1024 edges, against jnp's gather and segment sum. At the ideal instance both return, for node i and feature f, the sum
  over the edges with target i of x[src e, f] · w[e] (Spec.lean's G), provided every source word names a node — the
  added precondition: outside it the reference wraps and clamps the source where the kernel gathers zero.
  The three frames are the generated ones (the reference's from its generated run); nothing was rewritten by the ideal
  pass, so `preserves` is trivial; `algebraic` puts the two values side by side.
-/
import proofs.«403076_j88974542503970_2_alg».proof.Defs
import proofs.«403076_j88974542503970_2_alg».proof.Proof.Gen.Kernel
import proofs.«403076_j88974542503970_2_alg».proof.Proof.Gen.Kernel.Skeleton
import proofs.«403076_j88974542503970_2_alg».proof.Proof.Gen.Kernel.Launch
import proofs.«403076_j88974542503970_2_alg».proof.Proof.Gen.Kernel.Points
import proofs.«403076_j88974542503970_2_alg».proof.Proof.Gen.Kernel.Frame
import proofs.«403076_j88974542503970_2_alg».proof.Proof.Gen.KernelIdeal
import proofs.«403076_j88974542503970_2_alg».proof.Proof.Gen.KernelIdeal.Skeleton
import proofs.«403076_j88974542503970_2_alg».proof.Proof.Gen.KernelIdeal.Launch
import proofs.«403076_j88974542503970_2_alg».proof.Proof.Gen.KernelIdeal.Points
import proofs.«403076_j88974542503970_2_alg».proof.Proof.Gen.KernelIdeal.Frame
import proofs.«403076_j88974542503970_2_alg».proof.Proof.Gen.ReferenceIdeal
import proofs.«403076_j88974542503970_2_alg».proof.Proof.Gen.Pre_finite_inputs
import proofs.«403076_j88974542503970_2_alg».proof.Proof.RefRun
import proofs.«403076_j88974542503970_2_alg».proof.Proof.RefValue
import proofs.«403076_j88974542503970_2_alg».proof.Proof.PreDecode
import proofs.«403076_j88974542503970_2_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the segment sum of arguments that agree: the kernel's run read through its blocks and its
    accumulation over the grid, the reference's run read one operation at a time; the precondition gives the sources'
    range both readings use. -/
theorem algebraic : Cert.algebraic_KernelIdeal_ReferenceIdeal := by
  intro m ρ m' ρ' hpre hagree
  have hs : ∀ c : Dev Cert.KernelIdeal.nD, Cert.SegSum.SrcInRange (Cert.KernelIdeal.HostSide.eA m c) := fun c =>
    Cert.Pre_finite_inputs.Decode.srcInRange_of_pre _ _ _ (hpre c)
  refine ⟨fun c => Cert.SegSum.G (Cert.KernelIdeal.HostSide.xA m c) (Cert.KernelIdeal.HostSide.eA m c) (Cert.KernelIdeal.HostSide.wA m c),
    Cert.KernelIdeal.Result.run m ρ hs, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  exact Cert.ReferenceIdeal.RefValue.ref_eq _ _ _ (hs c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
